-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S2x6400000 : Shape := ⟨2, ![2, 6400000]⟩
abbrev S256x16 : Shape := ⟨2, ![256, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x6400000 : Shape := ⟨2, ![1, 6400000]⟩
abbrev S6400000 : Shape := ⟨1, ![6400000]⟩
abbrev S_ : Shape := ⟨0, ![]⟩

class Facts : Prop where
  slices_S2x6400000_S1x6400000_0_0 : S2x6400000.Slices ![0, 0] S1x6400000
  shapeCasts_S1x6400000_S6400000 : S1x6400000.ShapeCasts S6400000
  bcast_S_S200000x256 : S_.BroadcastsInDim S200000x256 (![] : Fin 0 → Fin S200000x256.rank)
  reducesTo_S200000x256_S_d0_1 : S200000x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_
  bcast_S_S6400000 : S_.BroadcastsInDim S6400000 (![] : Fin 0 → Fin S6400000.rank)
  reducesTo_S6400000_S_d0 : S6400000.ReducesTo [0] S_

variable [Facts]

def fn_part2 {F : FTy → Type} [FloatOps F] (main_v1 : IVec S6400000 32) (main_v30 : IVec S_ 1) (main_v33 : IVec S1 1) (main_c_11 : IVec S_ 1) : IVec S_ 1 :=
  let main_v34 : IVec S_ 1 := (fun x v => Host.reduce IntOp.andi x v reducesTo_S1_S_d0 h_S_) main_v33 main_c_11
  let main_v35 : IVec S_ 1 := andi main_v30 main_v34
  let main_c_12 : IVec S_ 32 := constantI S_ 32 0#32
  let main_v36 : IVec S6400000 32 := broadcastInDim S6400000 ![] bcast_S_S6400000 main_c_12
  let main_v37 : IVec S6400000 1 := cmpi .sge main_v1 main_v36
  let main_c_13 : IVec S_ 32 := constantI S_ 32 200000#32
  let main_v38 : IVec S6400000 32 := broadcastInDim S6400000 ![] bcast_S_S6400000 main_c_13
  let main_v39 : IVec S6400000 1 := cmpi .slt main_v1 main_v38
  let main_v40 : IVec S6400000 1 := andi main_v37 main_v39
  let main_c_14 : IVec S_ 1 := constantI S_ 1 1#1
  let main_v41 : IVec S_ 1 := (fun x v => Host.reduce IntOp.andi x v reducesTo_S6400000_S_d0 h_S_) main_v40 main_c_14
  let main_v42 : IVec S_ 1 := andi main_v35 main_v41
  main_v42

def fn_part1 {F : FTy → Type} [FloatOps F] (main_arg5 : FVec F S16 .f32) (main_arg6 : FVec F S16x1 .f32) (main_arg7 : FVec F S1 .f32) (main_v1 : IVec S6400000 32) (main_v15 : IVec S_ 1) (main_v16 : FVec F S16x16 .f32) (main_cst_4 : FVec F S_ .f32) : IVec S_ 1 :=
  let main_v17 : FVec F S16x16 .f32 := broadcastInDim S16x16 ![] bcast_S_S16x16 main_cst_4
  let main_v18 : IVec S16x16 1 := cmpf .olt main_v16 main_v17
  let main_c_5 : IVec S_ 1 := constantI S_ 1 1#1
  let main_v19 : IVec S_ 1 := (fun x v => Host.reduce IntOp.andi x v reducesTo_S16x16_S_d0_1 h_S_) main_v18 main_c_5
  let main_v20 : IVec S_ 1 := andi main_v15 main_v19
  let main_v21 : FVec F S16 .f32 := Host.absf main_arg5
  let main_cst_6 : FVec F S_ .f32 := constant S_ .f32 0x7F800000#32
  let main_v22 : FVec F S16 .f32 := broadcastInDim S16 ![] bcast_S_S16 main_cst_6
  let main_v23 : IVec S16 1 := cmpf .olt main_v21 main_v22
  let main_c_7 : IVec S_ 1 := constantI S_ 1 1#1
  let main_v24 : IVec S_ 1 := (fun x v => Host.reduce IntOp.andi x v reducesTo_S16_S_d0 h_S_) main_v23 main_c_7
  let main_v25 : IVec S_ 1 := andi main_v20 main_v24
  let main_v26 : FVec F S16x1 .f32 := Host.absf main_arg6
  let main_cst_8 : FVec F S_ .f32 := constant S_ .f32 0x7F800000#32
  let main_v27 : FVec F S16x1 .f32 := broadcastInDim S16x1 ![] bcast_S_S16x1 main_cst_8
  let main_v28 : IVec S16x1 1 := cmpf .olt main_v26 main_v27
  let main_c_9 : IVec S_ 1 := constantI S_ 1 1#1
  let main_v29 : IVec S_ 1 := (fun x v => Host.reduce IntOp.andi x v reducesTo_S16x1_S_d0_1 h_S_) main_v28 main_c_9
  let main_v30 : IVec S_ 1 := andi main_v25 main_v29
  let main_v31 : FVec F S1 .f32 := Host.absf main_arg7
  let main_cst_10 : FVec F S_ .f32 := constant S_ .f32 0x7F800000#32
  let main_v32 : FVec F S1 .f32 := broadcastInDim S1 ![] bcast_S_S1 main_cst_10
  let main_v33 : IVec S1 1 := cmpf .olt main_v31 main_v32
  let main_c_11 : IVec S_ 1 := constantI S_ 1 1#1
  fn_part2 (F := F) main_v1 main_v30 main_v33 main_c_11

def fn {F : FTy → Type} [FloatOps F] (main_arg0 : FVec F S200000x256 .f32) (main_arg1 : IVec S2x6400000 32) (main_arg2 : FVec F S256x16 .f32) (main_arg3 : FVec F S16 .f32) (main_arg4 : FVec F S16x16 .f32) (main_arg5 : FVec F S16 .f32) (main_arg6 : FVec F S16x1 .f32) (main_arg7 : FVec F S1 .f32) : IVec S_ 1 :=
  let main_v0 : IVec S1x6400000 32 := (extractStridedSlice S1x6400000 ![0, 0] · slices_S2x6400000_S1x6400000_0_0) main_arg1
  let main_v1 : IVec S6400000 32 := shapeCast S6400000 main_v0 shapeCasts_S1x6400000_S6400000
  let main_v2 : FVec F S200000x256 .f32 := Host.absf main_arg0
  let main_cst : FVec F S_ .f32 := constant S_ .f32 0x7F800000#32
  let main_v3 : FVec F S200000x256 .f32 := broadcastInDim S200000x256 ![] bcast_S_S200000x256 main_cst
  let main_v4 : IVec S200000x256 1 := cmpf .olt main_v2 main_v3
  let main_c : IVec S_ 1 := constantI S_ 1 1#1
  let main_v5 : IVec S_ 1 := (fun x v => Host.reduce IntOp.andi x v reducesTo_S200000x256_S_d0_1 h_S_) main_v4 main_c
  let main_v6 : FVec F S256x16 .f32 := Host.absf main_arg2
  let main_cst_0 : FVec F S_ .f32 := constant S_ .f32 0x7F800000#32
  let main_v7 : FVec F S256x16 .f32 := broadcastInDim S256x16 ![] bcast_S_S256x16 main_cst_0
  let main_v8 : IVec S256x16 1 := cmpf .olt main_v6 main_v7
  let main_c_1 : IVec S_ 1 := constantI S_ 1 1#1
  let main_v9 : IVec S_ 1 := (fun x v => Host.reduce IntOp.andi x v reducesTo_S256x16_S_d0_1 h_S_) main_v8 main_c_1
  let main_v10 : IVec S_ 1 := andi main_v5 main_v9
  let main_v11 : FVec F S16 .f32 := Host.absf main_arg3
  let main_cst_2 : FVec F S_ .f32 := constant S_ .f32 0x7F800000#32
  let main_v12 : FVec F S16 .f32 := broadcastInDim S16 ![] bcast_S_S16 main_cst_2
  let main_v13 : IVec S16 1 := cmpf .olt main_v11 main_v12
  let main_c_3 : IVec S_ 1 := constantI S_ 1 1#1
  let main_v14 : IVec S_ 1 := (fun x v => Host.reduce IntOp.andi x v reducesTo_S16_S_d0 h_S_) main_v13 main_c_3
  let main_v15 : IVec S_ 1 := andi main_v10 main_v14
  let main_v16 : FVec F S16x16 .f32 := Host.absf main_arg4
  let main_cst_4 : FVec F S_ .f32 := constant S_ .f32 0x7F800000#32
  fn_part1 (F := F) main_arg5 main_arg6 main_arg7 main_v1 main_v15 main_v16 main_cst_4
-- ==== Kernel.lean ====
abbrev S200000x256 : Shape := ⟨2, ![200000, 256]⟩
abbrev S2x6400000 : Shape := ⟨2, ![2, 6400000]⟩
abbrev S256x16 : Shape := ⟨2, ![256, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x6400000 : Shape := ⟨2, ![1, 6400000]⟩
abbrev S6400000 : Shape := ⟨1, ![6400000]⟩
abbrev S_ : Shape := ⟨0, ![]⟩
abbrev S200000 : Shape := ⟨1, ![200000]⟩
abbrev S6400000x1 : Shape := ⟨2, ![6400000, 1]⟩
abbrev S200000x1 : Shape := ⟨2, ![200000, 1]⟩
abbrev S200000x16 : Shape := ⟨2, ![200000, 16]⟩
abbrev S5000x256 : Shape := ⟨2, ![5000, 256]⟩
abbrev S5000x16 : Shape := ⟨2, ![5000, 16]⟩
abbrev S1x1 : Shape := ⟨2, ![1, 1]⟩
abbrev S6400000x16 : Shape := ⟨2, ![6400000, 16]⟩
abbrev S1x16 : Shape := ⟨2, ![1, 16]⟩
abbrev S5000x1 : Shape := ⟨2, ![5000, 1]⟩

abbrev nBuf : Space → Nat
  | .hbm => 143
  | .vmem => 42
  | .smem => 0
  | _ => 0

abbrev hbmTy0_0 (i : Nat) : BufTy := match i % 128 with
  | 0 => ⟨S200000x256, .f32⟩
  | 1 => ⟨S2x6400000, .i32⟩
  | 2 => ⟨S256x16, .f32⟩
  | 3 => ⟨S16, .f32⟩
  | 4 => ⟨S16x16, .f32⟩
  | 5 => ⟨S16, .f32⟩
  | 6 => ⟨S16x1, .f32⟩
  | 7 => ⟨S1, .f32⟩
  | 8 => ⟨S1x6400000, .i32⟩
  | 9 => ⟨S6400000, .i32⟩
  | 10 => ⟨S1x6400000, .i32⟩
  | 11 => ⟨S6400000, .i32⟩
  | 12 => ⟨S_, .f32⟩
  | 13 => ⟨S6400000, .f32⟩
  | 14 => ⟨S_, .f32⟩
  | 15 => ⟨S200000, .f32⟩
  | 16 => ⟨S6400000x1, .i32⟩
  | 17 => ⟨S200000, .f32⟩
  | 18 => ⟨S_, .f32⟩
  | 19 => ⟨S200000, .f32⟩
  | 20 => ⟨S200000, .f32⟩
  | 21 => ⟨S_, .f32⟩
  | 22 => ⟨S200000, .f32⟩
  | 23 => ⟨S200000, .f32⟩
  | 24 => ⟨S200000, .f32⟩
  | 25 => ⟨S200000x1, .f32⟩
  | 26 => ⟨S_, .i32⟩
  | 27 => ⟨S6400000, .i32⟩
  | 28 => ⟨S6400000, .i1⟩
  | 29 => ⟨S_, .i32⟩
  | 30 => ⟨S6400000, .i32⟩
  | 31 => ⟨S6400000, .i32⟩
  | 32 => ⟨S6400000, .i32⟩
  | 33 => ⟨S6400000x1, .i32⟩
  | 34 => ⟨S6400000, .f32⟩
  | 35 => ⟨S_, .i32⟩
  | 36 => ⟨S6400000, .i32⟩
  | 37 => ⟨S6400000, .i1⟩
  | 38 => ⟨S_, .i32⟩
  | 39 => ⟨S6400000, .i32⟩
  | 40 => ⟨S6400000, .i32⟩
  | 41 => ⟨S6400000, .i32⟩
  | 42 => ⟨S6400000x1, .i32⟩
  | 43 => ⟨S6400000, .f32⟩
  | 44 => ⟨S6400000, .f32⟩
  | 45 => ⟨S200000x16, .f32⟩
  | 46 => ⟨S_, .i32⟩
  | 47 => ⟨S6400000, .i32⟩
  | 48 => ⟨S6400000, .i1⟩
  | 49 => ⟨S_, .i32⟩
  | 50 => ⟨S6400000, .i32⟩
  | 51 => ⟨S6400000, .i32⟩
  | 52 => ⟨S6400000, .i32⟩
  | 53 => ⟨S6400000x1, .i32⟩
  | 54 => ⟨S1, .i32⟩
  | 55 => ⟨S_, .i32⟩
  | 56 => ⟨S6400000x1, .i32⟩
  | 57 => ⟨S6400000x1, .i1⟩
  | 58 => ⟨S1x1, .i32⟩
  | 59 => ⟨S6400000x1, .i32⟩
  | 60 => ⟨S6400000x1, .i1⟩
  | 61 => ⟨S6400000x1, .i1⟩
  | 62 => ⟨S_, .i1⟩
  | 63 => ⟨S6400000, .i1⟩
  | 64 => ⟨S6400000x16, .f32⟩
  | 65 => ⟨S6400000x16, .i1⟩
  | 66 => ⟨S_, .f32⟩
  | 67 => ⟨S6400000x16, .f32⟩
  | 68 => ⟨S6400000x16, .f32⟩
  | 69 => ⟨S6400000x1, .f32⟩
  | 70 => ⟨S6400000x16, .f32⟩
  | 71 => ⟨S6400000x16, .f32⟩
  | 72 => ⟨S_, .f32⟩
  | 73 => ⟨S200000x16, .f32⟩
  | 74 => ⟨S6400000x1, .i32⟩
  | 75 => ⟨S200000x16, .f32⟩
  | 76 => ⟨S1x16, .f32⟩
  | 77 => ⟨S200000x16, .f32⟩
  | 78 => ⟨S200000x16, .f32⟩
  | 79 => ⟨S_, .i32⟩
  | 80 => ⟨S6400000, .i32⟩
  | 81 => ⟨S6400000, .i1⟩
  | 82 => ⟨S_, .i32⟩
  | 83 => ⟨S6400000, .i32⟩
  | 84 => ⟨S6400000, .i32⟩
  | 85 => ⟨S6400000, .i32⟩
  | 86 => ⟨S6400000x1, .i32⟩
  | 87 => ⟨S1, .i32⟩
  | 88 => ⟨S_, .i32⟩
  | 89 => ⟨S6400000x1, .i32⟩
  | 90 => ⟨S6400000x1, .i1⟩
  | 91 => ⟨S1x1, .i32⟩
  | 92 => ⟨S6400000x1, .i32⟩
  | 93 => ⟨S6400000x1, .i1⟩
  | 94 => ⟨S6400000x1, .i1⟩
  | 95 => ⟨S_, .i1⟩
  | 96 => ⟨S6400000, .i1⟩
  | 97 => ⟨S6400000x16, .f32⟩
  | 98 => ⟨S6400000x16, .i1⟩
  | 99 => ⟨S_, .f32⟩
  | 100 => ⟨S6400000x16, .f32⟩
  | 101 => ⟨S6400000x16, .f32⟩
  | 102 => ⟨S6400000x1, .f32⟩
  | 103 => ⟨S6400000x16, .f32⟩
  | 104 => ⟨S6400000x16, .f32⟩
  | 105 => ⟨S_, .f32⟩
  | 106 => ⟨S200000x16, .f32⟩
  | 107 => ⟨S6400000x1, .i32⟩
  | 108 => ⟨S200000x16, .f32⟩
  | 109 => ⟨S1x16, .f32⟩
  | 110 => ⟨S200000x16, .f32⟩
  | 111 => ⟨S200000x1, .f32⟩
  | 112 => ⟨S_, .i32⟩
  | 113 => ⟨S6400000, .i32⟩
  | 114 => ⟨S6400000, .i1⟩
  | 115 => ⟨S_, .i32⟩
  | 116 => ⟨S6400000, .i32⟩
  | 117 => ⟨S6400000, .i32⟩
  | 118 => ⟨S6400000, .i32⟩
  | 119 => ⟨S6400000x1, .i32⟩
  | 120 => ⟨S1, .i32⟩
  | 121 => ⟨S_, .i32⟩
  | 122 => ⟨S6400000x1, .i32⟩
  | 123 => ⟨S6400000x1, .i1⟩
  | 124 => ⟨S1x1, .i32⟩
  | 125 => ⟨S6400000x1, .i32⟩
  | 126 => ⟨S6400000x1, .i1⟩
  | 127 => ⟨S6400000x1, .i1⟩
  | _ => ⟨S200000x256, .f32⟩

abbrev hbmTy0_1 (i : Nat) : BufTy := match i % 128 with
  | 0 => ⟨S_, .i1⟩
  | 1 => ⟨S6400000, .i1⟩
  | 2 => ⟨S6400000x1, .f32⟩
  | 3 => ⟨S6400000x1, .i1⟩
  | 4 => ⟨S_, .f32⟩
  | 5 => ⟨S6400000x1, .f32⟩
  | 6 => ⟨S6400000x1, .f32⟩
  | 7 => ⟨S6400000x1, .f32⟩
  | 8 => ⟨S6400000x1, .f32⟩
  | 9 => ⟨S_, .f32⟩
  | 10 => ⟨S200000x1, .f32⟩
  | 11 => ⟨S6400000x1, .i32⟩
  | 12 => ⟨S200000x1, .f32⟩
  | 13 => ⟨S1x1, .f32⟩
  | 14 => ⟨S200000x1, .f32⟩
  | _ => ⟨S200000x256, .f32⟩

abbrev hbmTy (i : Nat) : BufTy := match i / 128 with
  | 0 => hbmTy0_0 i
  | 1 => hbmTy0_1 i
  | _ => ⟨S200000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S1x16, .f32⟩
  | .local _ .vmem, ⟨12, _⟩ => ⟨S5000x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S16x16, .f32⟩
  | .local _ .vmem, ⟨17, _⟩ => ⟨S5000x16, .f32⟩
  | .local _ .vmem, ⟨18, _⟩ => ⟨S5000x16, .f32⟩
  | .local _ .vmem, ⟨19, _⟩ => ⟨S5000x16, .f32⟩
  | .local _ .vmem, ⟨20, _⟩ => ⟨S5000x16, .f32⟩
  | .local _ .vmem, ⟨21, _⟩ => ⟨S5000x16, .f32⟩
  | .local _ .vmem, ⟨22, _⟩ => ⟨S5000x16, .f32⟩
  | .local _ .vmem, ⟨23, _⟩ => ⟨S5000x1, .f32⟩
  | .local _ .vmem, ⟨24, _⟩ => ⟨S5000x1, .f32⟩
  | .local _ .vmem, ⟨25, _⟩ => ⟨S1x16, .f32⟩
  | .local _ .vmem, ⟨26, _⟩ => ⟨S5000x16, .f32⟩
  | .local _ .vmem, ⟨27, _⟩ => ⟨S5000x16, .f32⟩
  | .local _ .vmem, ⟨28, _⟩ => ⟨S5000x16, .f32⟩
  | .local _ .vmem, ⟨29, _⟩ => ⟨S5000x16, .f32⟩
  | .local _ .vmem, ⟨30, _⟩ => ⟨S16x1, .f32⟩
  | .local _ .vmem, ⟨31, _⟩ => ⟨S5000x1, .f32⟩
  | .local _ .vmem, ⟨32, _⟩ => ⟨S5000x1, .f32⟩
  | .local _ .vmem, ⟨33, _⟩ => ⟨S5000x1, .f32⟩
  | .local _ .vmem, ⟨34, _⟩ => ⟨S5000x1, .f32⟩
  | .local _ .vmem, ⟨35, _⟩ => ⟨S5000x1, .f32⟩
  | .local _ .vmem, ⟨36, _⟩ => ⟨S5000x1, .f32⟩
  | .local _ .vmem, ⟨37, _⟩ => ⟨S5000x1, .f32⟩
  | .local _ .vmem, ⟨38, _⟩ => ⟨S5000x1, .f32⟩
  | .local _ .vmem, ⟨39, _⟩ => ⟨S1x1, .f32⟩
  | .local _ .vmem, ⟨40, _⟩ => ⟨S5000x1, .f32⟩
  | .local _ .vmem, ⟨41, _⟩ => ⟨S5000x1, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_c : Ref sig .tc := ⟨.hbm, 46, rfl⟩
abbrev main_call0_v0 : Ref sig .tc := ⟨.hbm, 47, rfl⟩
abbrev main_call0_v1 : Ref sig .tc := ⟨.hbm, 48, rfl⟩
abbrev main_call0_c_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_c_1 : Ref sig .tc := ⟨.hbm, 54, rfl⟩
abbrev main_call0_c_2 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_c_3 : Ref sig .tc := ⟨.hbm, 62, rfl⟩
abbrev main_call0_v12 : Ref sig .tc := ⟨.hbm, 63, rfl⟩
abbrev main_call0_v13 : Ref sig .tc := ⟨.hbm, 64, rfl⟩
abbrev main_call0_v14 : Ref sig .tc := ⟨.hbm, 65, rfl⟩
abbrev main_call0_cst : Ref sig .tc := ⟨.hbm, 66, rfl⟩
abbrev main_call0_v15 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_cst_6 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_call1_c : Ref sig .tc := ⟨.hbm, 79, rfl⟩
abbrev main_call1_v0 : Ref sig .tc := ⟨.hbm, 80, rfl⟩
abbrev main_call1_v1 : Ref sig .tc := ⟨.hbm, 81, rfl⟩
abbrev main_call1_c_0 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_c_1 : Ref sig .tc := ⟨.hbm, 87, rfl⟩
abbrev main_call1_c_2 : Ref sig .tc := ⟨.hbm, 88, rfl⟩
abbrev main_call1_v6 : Ref sig .tc := ⟨.hbm, 89, rfl⟩
abbrev main_call1_v7 : Ref sig .tc := ⟨.hbm, 90, rfl⟩
abbrev main_call1_v8 : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_call1_c_3 : Ref sig .tc := ⟨.hbm, 95, rfl⟩
abbrev main_call1_v12 : Ref sig .tc := ⟨.hbm, 96, rfl⟩
abbrev main_call1_v13 : Ref sig .tc := ⟨.hbm, 97, rfl⟩
abbrev main_call1_v14 : Ref sig .tc := ⟨.hbm, 98, rfl⟩
abbrev main_call1_cst : Ref sig .tc := ⟨.hbm, 99, rfl⟩
abbrev main_call1_v15 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_cst_7 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_call2_c : Ref sig .tc := ⟨.hbm, 112, rfl⟩
abbrev main_call2_v0 : Ref sig .tc := ⟨.hbm, 113, rfl⟩
abbrev main_call2_v1 : Ref sig .tc := ⟨.hbm, 114, rfl⟩
abbrev main_call2_c_0 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_v5 : Ref sig .tc := ⟨.hbm, 119, rfl⟩
abbrev main_call2_c_1 : Ref sig .tc := ⟨.hbm, 120, rfl⟩
abbrev main_call2_c_2 : Ref sig .tc := ⟨.hbm, 121, rfl⟩
abbrev main_call2_v6 : Ref sig .tc := ⟨.hbm, 122, rfl⟩
abbrev main_call2_v7 : Ref sig .tc := ⟨.hbm, 123, rfl⟩
abbrev main_call2_v8 : Ref sig .tc := ⟨.hbm, 124, rfl⟩
abbrev main_call2_v9 : Ref sig .tc := ⟨.hbm, 125, rfl⟩
abbrev main_call2_v10 : Ref sig .tc := ⟨.hbm, 126, rfl⟩
abbrev main_call2_v11 : Ref sig .tc := ⟨.hbm, 127, rfl⟩
abbrev main_call2_c_3 : Ref sig .tc := ⟨.hbm, 128, rfl⟩
abbrev main_call2_v12 : Ref sig .tc := ⟨.hbm, 129, rfl⟩
abbrev main_call2_v13 : Ref sig .tc := ⟨.hbm, 130, rfl⟩
abbrev main_call2_v14 : Ref sig .tc := ⟨.hbm, 131, rfl⟩
abbrev main_call2_cst : Ref sig .tc := ⟨.hbm, 132, rfl⟩
abbrev main_call2_v15 : Ref sig .tc := ⟨.hbm, 133, rfl⟩
abbrev main_v50 : Ref sig .tc := ⟨.hbm, 134, rfl⟩
abbrev main_v51 : Ref sig .tc := ⟨.hbm, 135, rfl⟩
abbrev main_v52 : Ref sig .tc := ⟨.hbm, 136, rfl⟩
abbrev main_cst_8 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![40], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S200000 : S_.BroadcastsInDim S200000 (![] : Fin 0 → Fin S200000.rank)
  bcast_S6400000_S6400000x1_0 : S6400000.BroadcastsInDim S6400000x1 (![0] : Fin 1 → Fin S6400000x1.rank)
  shapeCasts_S200000_S200000x1 : S200000.ShapeCasts S200000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S5000x16_S5000x16_0_0 : ∀ a, (![0, 0] : Fin 2 → Nat) a + S5000x16.size a ≤ S5000x16.size a
  h_S5000x16 : 0 < S5000x16.numel
  bcast_S_S6400000x1 : S_.BroadcastsInDim S6400000x1 (![] : Fin 0 → Fin S6400000x1.rank)
  bcast_S1_S1x1_1 : S1.BroadcastsInDim S1x1 (![1] : Fin 1 → Fin S1x1.rank)
  bcast_S1x1_S6400000x1_0_1 : S1x1.BroadcastsInDim S6400000x1 (![0, 1] : Fin 2 → Fin S6400000x1.rank)
  reducesTo_S6400000x1_S6400000_d1 : S6400000x1.ReducesTo [1] S6400000
  h_S_ : 0 < S_.numel
  bcast_S6400000_S6400000x16_0 : S6400000.BroadcastsInDim S6400000x16 (![0] : Fin 1 → Fin S6400000x16.rank)
  bcast_S_S6400000x16 : S_.BroadcastsInDim S6400000x16 (![] : Fin 0 → Fin S6400000x16.rank)
  bcast_S6400000x1_S6400000x16_0_1 : S6400000x1.BroadcastsInDim S6400000x16 (![0, 1] : Fin 2 → Fin S6400000x16.rank)
  bcast_S_S200000x16 : S_.BroadcastsInDim S200000x16 (![] : Fin 0 → Fin S200000x16.rank)
  shapeCasts_S16_S1x16 : S16.ShapeCasts S1x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  shapeCasts_S5000x16_S5000x16 : S5000x16.ShapeCasts S5000x16
  inb_S16x16_S16x16_0_0 : ∀ a, (![0, 0] : Fin 2 → Nat) a + S16x16.size a ≤ S16x16.size a
  h_S16x16 : 0 < S16x16.numel
  inb_S16x1_S16x1_0_0 : ∀ a, (![0, 0] : Fin 2 → Nat) a + S16x1.size a ≤ S16x1.size a
  h_S16x1 : 0 < S16x1.numel
  bcast_S_S200000x1 : S_.BroadcastsInDim S200000x1 (![] : Fin 0 → Fin S200000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S200000_S6400000x1_S6400000_n_0_0_1_wf : ScatterDims.WF S200000 S6400000x1 S6400000 [] [0] [0] 1
  gather_S200000_S6400000x1_S6400000_n_0_n_n_0_1_1_wf : GatherDims.WF S200000 S6400000x1 S6400000 [] [0] [] [0] [] 1 ![1]
  dot_S5000x256_S256x16_S5000x16_1_0_0_1_n_n_wf : DotDims.WF S5000x256 S256x16 S5000x16 [1] [0] [0] [1] [] []
  gather_S200000x16_S6400000x1_S6400000x16_1_0_n_n_0_1_116_wf : GatherDims.WF S200000x16 S6400000x1 S6400000x16 [1] [0] [] [0] [] 1 ![1, 16]
  scatter_S200000x16_S6400000x1_S6400000x16_1_0_0_1_wf : ScatterDims.WF S200000x16 S6400000x1 S6400000x16 [1] [0] [0] 1
  dot_S5000x16_S16x16_S5000x16_1_0_0_1_n_n_wf : DotDims.WF S5000x16 S16x16 S5000x16 [1] [0] [0] [1] [] []
  dot_S5000x16_S16x1_S5000x1_1_0_0_1_n_n_wf : DotDims.WF S5000x16 S16x1 S5000x1 [1] [0] [0] [1] [] []
  gather_S200000x1_S6400000x1_S6400000x1_1_0_n_n_0_1_11_wf : GatherDims.WF S200000x1 S6400000x1 S6400000x1 [1] [0] [] [0] [] 1 ![1, 1]
  scatter_S200000x1_S6400000x1_S6400000x1_1_0_0_1_wf : ScatterDims.WF S200000x1 S6400000x1 S6400000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S200000x256.size a
  hwx0_0 : ∀ i : grid0.Coords, EltTy.bits .f32 = 32 ∨ (Rect.block (s := S200000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S200000x16.size a
  hwx0_2 : ∀ i : grid0.Coords, EltTy.bits .f32 = 32 ∨ (Rect.block (s := S200000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S200000x16.size a
  hwx1_0 : ∀ i : grid1.Coords, EltTy.bits .f32 = 32 ∨ (Rect.block (s := S200000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S200000x16.size a
  hwx1_1 : ∀ i : grid1.Coords, EltTy.bits .f32 = 32 ∨ (Rect.block (s := S200000x16) S5000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S200000x1.size a
  hwx1_2 : ∀ i : grid1.Coords, EltTy.bits .f32 = 32 ∨ (Rect.block (s := S200000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x16.size a ≤ S200000x16.size a
  hwx1_4 : ∀ i : grid1.Coords, EltTy.bits .f32 = 32 ∨ (Rect.block (s := S200000x16) S5000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S200000x16.size a
  hwx2_0 : ∀ i : grid2.Coords, EltTy.bits .f32 = 32 ∨ (Rect.block (s := S200000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S200000x16.size a
  hwx2_2 : ∀ i : grid2.Coords, EltTy.bits .f32 = 32 ∨ (Rect.block (s := S200000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S200000x16.size a
  hwx3_0 : ∀ i : grid3.Coords, EltTy.bits .f32 = 32 ∨ (Rect.block (s := S200000x16) S5000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x16.size a ≤ S200000x16.size a
  hwx3_1 : ∀ i : grid3.Coords, EltTy.bits .f32 = 32 ∨ (Rect.block (s := S200000x16) S5000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S200000x1.size a
  hwx3_2 : ∀ i : grid3.Coords, EltTy.bits .f32 = 32 ∨ (Rect.block (s := S200000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x16.size a ≤ S200000x16.size a
  hwx3_4 : ∀ i : grid3.Coords, EltTy.bits .f32 = 32 ∨ (Rect.block (s := S200000x16) S5000x16.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x16.size a ≤ S200000x16.size a
  hwx4_0 : ∀ i : grid4.Coords, EltTy.bits .f32 = 32 ∨ (Rect.block (s := S200000x16) S5000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x1.size a ≤ S16x1.size a
  hwx4_1 : ∀ i : grid4.Coords, EltTy.bits .f32 = 32 ∨ (Rect.block (s := S16x1) S16x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S200000x1.size a
  hwx4_2 : ∀ i : grid4.Coords, EltTy.bits .f32 = 32 ∨ (Rect.block (s := S200000x1) S5000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x1.size a ≤ S200000x1.size a
  hwx5_0 : ∀ i : grid5.Coords, EltTy.bits .f32 = 32 ∨ (Rect.block (s := S200000x1) S5000x1.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S200000x1.size a
  hwx5_1 : ∀ i : grid5.Coords, EltTy.bits .f32 = 32 ∨ (Rect.block (s := S200000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S200000x1.size a
  hwx5_2 : ∀ i : grid5.Coords, EltTy.bits .f32 = 32 ∨ (Rect.block (s := S200000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x1.size a ≤ S200000x1.size a
  hwx5_4 : ∀ i : grid5.Coords, EltTy.bits .f32 = 32 ∨ (Rect.block (s := S200000x1) S5000x1.size (cc5_transform_4 i) (hinb5_4 i)).WholeWords (EltTy.packing .f32)

variable [Facts₀]

def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def gather_S200000_S6400000x1_S6400000_n_0_n_n_0_1_1 : GatherDims S200000 S6400000x1 S6400000 where
  offsetDims := []
  collapsedSliceDims := [0]
  operandBatchingDims := []
  startIndicesBatchingDims := []
  startIndexMap := [0]
  indexVectorDim := 1
  sliceSizes := ![1]
  wf := gather_S200000_S6400000x1_S6400000_n_0_n_n_0_1_1_wf
def dot_S5000x256_S256x16_S5000x16_1_0_0_1_n_n : DotDims S5000x256 S256x16 S5000x16 where
  lhsContracting := [1]
  rhsContracting := [0]
  lhsNonContracting := [0]
  rhsNonContracting := [1]
  lhsBatch := []
  rhsBatch := []
  wf := dot_S5000x256_S256x16_S5000x16_1_0_0_1_n_n_wf
def gather_S200000x16_S6400000x1_S6400000x16_1_0_n_n_0_1_116 : GatherDims S200000x16 S6400000x1 S6400000x16 where
  offsetDims := [1]
  collapsedSliceDims := [0]
  operandBatchingDims := []
  startIndicesBatchingDims := []
  startIndexMap := [0]
  indexVectorDim := 1
  sliceSizes := ![1, 16]
  wf := gather_S200000x16_S6400000x1_S6400000x16_1_0_n_n_0_1_116_wf
def scatter_S200000x16_S6400000x1_S6400000x16_1_0_0_1 : ScatterDims S200000x16 S6400000x1 S6400000x16 where
  updateWindowDims := [1]
  insertedWindowDims := [0]
  scatterDimsToOperandDims := [0]
  indexVectorDim := 1
  wf := scatter_S200000x16_S6400000x1_S6400000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def dot_S5000x16_S16x1_S5000x1_1_0_0_1_n_n : DotDims S5000x16 S16x1 S5000x1 where
  lhsContracting := [1]
  rhsContracting := [0]
  lhsNonContracting := [0]
  rhsNonContracting := [1]
  lhsBatch := []
  rhsBatch := []
  wf := dot_S5000x16_S16x1_S5000x1_1_0_0_1_n_n_wf
def gather_S200000x1_S6400000x1_S6400000x1_1_0_n_n_0_1_11 : GatherDims S200000x1 S6400000x1 S6400000x1 where
  offsetDims := [1]
  collapsedSliceDims := [0]
  operandBatchingDims := []
  startIndicesBatchingDims := []
  startIndexMap := [0]
  indexVectorDim := 1
  sliceSizes := ![1, 1]
  wf := gather_S200000x1_S6400000x1_S6400000x1_1_0_n_n_0_1_11_wf
def scatter_S200000x1_S6400000x1_S6400000x1_1_0_0_1 : ScatterDims S200000x1 S6400000x1 S6400000x1 where
  updateWindowDims := [1]
  insertedWindowDims := [0]
  scatterDimsToOperandDims := [0]
  indexVectorDim := 1
  wf := scatter_S200000x1_S6400000x1_S6400000x1_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v36) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S5000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v46) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S5000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v47) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S5000x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v48) S5000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S16x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v49) S5000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v55) S5000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v49) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v13) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v56) S1x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v57) S5000x1.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S200000x256 : Shape := ⟨2, ![200000, 256]⟩
abbrev S2x6400000 : Shape := ⟨2, ![2, 6400000]⟩
abbrev S256x16 : Shape := ⟨2, ![256, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x6400000 : Shape := ⟨2, ![1, 6400000]⟩
abbrev S6400000 : Shape := ⟨1, ![6400000]⟩
abbrev S_ : Shape := ⟨0, ![]⟩
abbrev S200000 : Shape := ⟨1, ![200000]⟩
abbrev S6400000x1 : Shape := ⟨2, ![6400000, 1]⟩
abbrev S200000x16 : Shape := ⟨2, ![200000, 16]⟩
abbrev S6400000x16 : Shape := ⟨2, ![6400000, 16]⟩
abbrev S200000x1 : Shape := ⟨2, ![200000, 1]⟩
abbrev S1x16 : Shape := ⟨2, ![1, 16]⟩
abbrev S1x1 : Shape := ⟨2, ![1, 1]⟩

abbrev nBuf : Space → Nat
  | .hbm => 160
  | .vmem => 0
  | .smem => 0
  | _ => 0

abbrev hbmTy0_0 (i : Nat) : BufTy := match i % 128 with
  | 0 => ⟨S200000x256, .f32⟩
  | 1 => ⟨S2x6400000, .i32⟩
  | 2 => ⟨S256x16, .f32⟩
  | 3 => ⟨S16, .f32⟩
  | 4 => ⟨S16x16, .f32⟩
  | 5 => ⟨S16, .f32⟩
  | 6 => ⟨S16x1, .f32⟩
  | 7 => ⟨S1, .f32⟩
  | 8 => ⟨S1x6400000, .i32⟩
  | 9 => ⟨S6400000, .i32⟩
  | 10 => ⟨S1x6400000, .i32⟩
  | 11 => ⟨S6400000, .i32⟩
  | 12 => ⟨S_, .f32⟩
  | 13 => ⟨S6400000, .f32⟩
  | 14 => ⟨S_, .f32⟩
  | 15 => ⟨S200000, .f32⟩
  | 16 => ⟨S6400000x1, .i32⟩
  | 17 => ⟨S200000, .f32⟩
  | 18 => ⟨S_, .f32⟩
  | 19 => ⟨S200000, .f32⟩
  | 20 => ⟨S200000, .f32⟩
  | 21 => ⟨S_, .f32⟩
  | 22 => ⟨S200000, .f32⟩
  | 23 => ⟨S200000, .f32⟩
  | 24 => ⟨S200000x16, .f32⟩
  | 25 => ⟨S_, .i32⟩
  | 26 => ⟨S6400000, .i32⟩
  | 27 => ⟨S6400000, .i1⟩
  | 28 => ⟨S_, .i32⟩
  | 29 => ⟨S6400000, .i32⟩
  | 30 => ⟨S6400000, .i32⟩
  | 31 => ⟨S6400000, .i32⟩
  | 32 => ⟨S6400000x1, .i32⟩
  | 33 => ⟨S6400000, .f32⟩
  | 34 => ⟨S_, .i32⟩
  | 35 => ⟨S6400000, .i32⟩
  | 36 => ⟨S6400000, .i1⟩
  | 37 => ⟨S_, .i32⟩
  | 38 => ⟨S6400000, .i32⟩
  | 39 => ⟨S6400000, .i32⟩
  | 40 => ⟨S6400000, .i32⟩
  | 41 => ⟨S6400000x1, .i32⟩
  | 42 => ⟨S6400000, .f32⟩
  | 43 => ⟨S6400000, .f32⟩
  | 44 => ⟨S6400000x1, .f32⟩
  | 45 => ⟨S_, .i32⟩
  | 46 => ⟨S6400000, .i32⟩
  | 47 => ⟨S6400000, .i1⟩
  | 48 => ⟨S_, .i32⟩
  | 49 => ⟨S6400000, .i32⟩
  | 50 => ⟨S6400000, .i32⟩
  | 51 => ⟨S6400000, .i32⟩
  | 52 => ⟨S6400000x1, .i32⟩
  | 53 => ⟨S6400000x16, .f32⟩
  | 54 => ⟨S6400000x16, .f32⟩
  | 55 => ⟨S6400000x16, .f32⟩
  | 56 => ⟨S_, .f32⟩
  | 57 => ⟨S200000x16, .f32⟩
  | 58 => ⟨S6400000x1, .i32⟩
  | 59 => ⟨S200000x16, .f32⟩
  | 60 => ⟨S200000, .f32⟩
  | 61 => ⟨S200000x1, .f32⟩
  | 62 => ⟨S200000x16, .f32⟩
  | 63 => ⟨S200000x16, .f32⟩
  | 64 => ⟨S200000x16, .f32⟩
  | 65 => ⟨S1x16, .f32⟩
  | 66 => ⟨S200000x16, .f32⟩
  | 67 => ⟨S200000x16, .f32⟩
  | 68 => ⟨S_, .f32⟩
  | 69 => ⟨S200000x16, .f32⟩
  | 70 => ⟨S200000x16, .f32⟩
  | 71 => ⟨S200000x16, .f32⟩
  | 72 => ⟨S_, .i32⟩
  | 73 => ⟨S6400000, .i32⟩
  | 74 => ⟨S6400000, .i1⟩
  | 75 => ⟨S_, .i32⟩
  | 76 => ⟨S6400000, .i32⟩
  | 77 => ⟨S6400000, .i32⟩
  | 78 => ⟨S6400000, .i32⟩
  | 79 => ⟨S6400000x1, .i32⟩
  | 80 => ⟨S6400000, .f32⟩
  | 81 => ⟨S_, .i32⟩
  | 82 => ⟨S6400000, .i32⟩
  | 83 => ⟨S6400000, .i1⟩
  | 84 => ⟨S_, .i32⟩
  | 85 => ⟨S6400000, .i32⟩
  | 86 => ⟨S6400000, .i32⟩
  | 87 => ⟨S6400000, .i32⟩
  | 88 => ⟨S6400000x1, .i32⟩
  | 89 => ⟨S6400000, .f32⟩
  | 90 => ⟨S6400000, .f32⟩
  | 91 => ⟨S6400000x1, .f32⟩
  | 92 => ⟨S_, .i32⟩
  | 93 => ⟨S6400000, .i32⟩
  | 94 => ⟨S6400000, .i1⟩
  | 95 => ⟨S_, .i32⟩
  | 96 => ⟨S6400000, .i32⟩
  | 97 => ⟨S6400000, .i32⟩
  | 98 => ⟨S6400000, .i32⟩
  | 99 => ⟨S6400000x1, .i32⟩
  | 100 => ⟨S6400000x16, .f32⟩
  | 101 => ⟨S6400000x16, .f32⟩
  | 102 => ⟨S6400000x16, .f32⟩
  | 103 => ⟨S_, .f32⟩
  | 104 => ⟨S200000x16, .f32⟩
  | 105 => ⟨S6400000x1, .i32⟩
  | 106 => ⟨S200000x16, .f32⟩
  | 107 => ⟨S200000, .f32⟩
  | 108 => ⟨S200000x1, .f32⟩
  | 109 => ⟨S200000x16, .f32⟩
  | 110 => ⟨S200000x16, .f32⟩
  | 111 => ⟨S200000x16, .f32⟩
  | 112 => ⟨S1x16, .f32⟩
  | 113 => ⟨S200000x16, .f32⟩
  | 114 => ⟨S200000x16, .f32⟩
  | 115 => ⟨S_, .f32⟩
  | 116 => ⟨S200000x16, .f32⟩
  | 117 => ⟨S200000x16, .f32⟩
  | 118 => ⟨S200000x1, .f32⟩
  | 119 => ⟨S_, .i32⟩
  | 120 => ⟨S6400000, .i32⟩
  | 121 => ⟨S6400000, .i1⟩
  | 122 => ⟨S_, .i32⟩
  | 123 => ⟨S6400000, .i32⟩
  | 124 => ⟨S6400000, .i32⟩
  | 125 => ⟨S6400000, .i32⟩
  | 126 => ⟨S6400000x1, .i32⟩
  | 127 => ⟨S6400000, .f32⟩
  | _ => ⟨S200000x256, .f32⟩

abbrev hbmTy0_1 (i : Nat) : BufTy := match i % 128 with
  | 0 => ⟨S_, .i32⟩
  | 1 => ⟨S6400000, .i32⟩
  | 2 => ⟨S6400000, .i1⟩
  | 3 => ⟨S_, .i32⟩
  | 4 => ⟨S6400000, .i32⟩
  | 5 => ⟨S6400000, .i32⟩
  | 6 => ⟨S6400000, .i32⟩
  | 7 => ⟨S6400000x1, .i32⟩
  | 8 => ⟨S6400000, .f32⟩
  | 9 => ⟨S6400000, .f32⟩
  | 10 => ⟨S6400000x1, .f32⟩
  | 11 => ⟨S_, .i32⟩
  | 12 => ⟨S6400000, .i32⟩
  | 13 => ⟨S6400000, .i1⟩
  | 14 => ⟨S_, .i32⟩
  | 15 => ⟨S6400000, .i32⟩
  | 16 => ⟨S6400000, .i32⟩
  | 17 => ⟨S6400000, .i32⟩
  | 18 => ⟨S6400000x1, .i32⟩
  | 19 => ⟨S6400000x1, .f32⟩
  | 20 => ⟨S6400000x1, .f32⟩
  | 21 => ⟨S_, .f32⟩
  | 22 => ⟨S200000x1, .f32⟩
  | 23 => ⟨S6400000x1, .i32⟩
  | 24 => ⟨S200000x1, .f32⟩
  | 25 => ⟨S200000, .f32⟩
  | 26 => ⟨S200000x1, .f32⟩
  | 27 => ⟨S200000x1, .f32⟩
  | 28 => ⟨S200000x1, .f32⟩
  | 29 => ⟨S1x1, .f32⟩
  | 30 => ⟨S200000x1, .f32⟩
  | 31 => ⟨S200000x1, .f32⟩
  | _ => ⟨S200000x256, .f32⟩

abbrev hbmTy (i : Nat) : BufTy := match i / 128 with
  | 0 => hbmTy0_0 i
  | 1 => hbmTy0_1 i
  | _ => ⟨S200000x256, .f32⟩

abbrev bufTy : (tb : Table) → Fin (tcTables nBuf tb) → BufTy
  | .hbm, ⟨i, _⟩ => hbmTy i
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call0_cst : Ref sig .tc := ⟨.hbm, 68, rfl⟩
abbrev main_call0_v0 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_c_14 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_call1_cst : Ref sig .tc := ⟨.hbm, 115, rfl⟩
abbrev main_call1_v0 : Ref sig .tc := ⟨.hbm, 116, rfl⟩
abbrev main_v87 : Ref sig .tc := ⟨.hbm, 117, rfl⟩
abbrev main_v88 : Ref sig .tc := ⟨.hbm, 118, rfl⟩
abbrev main_c_16 : Ref sig .tc := ⟨.hbm, 119, rfl⟩
abbrev main_v89 : Ref sig .tc := ⟨.hbm, 120, rfl⟩
abbrev main_v90 : Ref sig .tc := ⟨.hbm, 121, rfl⟩
abbrev main_c_17 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_c_18 : Ref sig .tc := ⟨.hbm, 128, rfl⟩
abbrev main_v96 : Ref sig .tc := ⟨.hbm, 129, rfl⟩
abbrev main_v97 : Ref sig .tc := ⟨.hbm, 130, rfl⟩
abbrev main_c_19 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_c_20 : Ref sig .tc := ⟨.hbm, 139, rfl⟩
abbrev main_v105 : Ref sig .tc := ⟨.hbm, 140, rfl⟩
abbrev main_v106 : Ref sig .tc := ⟨.hbm, 141, rfl⟩
abbrev main_c_21 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_22 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S200000 : S_.BroadcastsInDim S200000 (![] : Fin 0 → Fin S200000.rank)
  bcast_S6400000_S6400000x1_0 : S6400000.BroadcastsInDim S6400000x1 (![0] : Fin 1 → Fin S6400000x1.rank)
  bcast_S6400000x1_S6400000x16_0_1 : S6400000x1.BroadcastsInDim S6400000x16 (![0, 1] : Fin 2 → Fin S6400000x16.rank)
  bcast_S_S200000x16 : S_.BroadcastsInDim S200000x16 (![] : Fin 0 → Fin S200000x16.rank)
  bcast_S200000_S200000x1_0 : S200000.BroadcastsInDim S200000x1 (![0] : Fin 1 → Fin S200000x1.rank)
  bcast_S200000x1_S200000x16_0_1 : S200000x1.BroadcastsInDim S200000x16 (![0, 1] : Fin 2 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  scatter_S200000_S6400000x1_S6400000_n_0_0_1_wf : ScatterDims.WF S200000 S6400000x1 S6400000 [] [0] [0] 1
  dot_S200000x256_S256x16_S200000x16_1_0_0_1_n_n_wf : DotDims.WF S200000x256 S256x16 S200000x16 [1] [0] [0] [1] [] []
  gather_S200000_S6400000x1_S6400000_n_0_n_n_0_1_1_wf : GatherDims.WF S200000 S6400000x1 S6400000 [] [0] [] [0] [] 1 ![1]
  gather_S200000x16_S6400000x1_S6400000x16_1_0_n_n_0_1_116_wf : GatherDims.WF S200000x16 S6400000x1 S6400000x16 [1] [0] [] [0] [] 1 ![1, 16]
  scatter_S200000x16_S6400000x1_S6400000x16_1_0_0_1_wf : ScatterDims.WF S200000x16 S6400000x1 S6400000x16 [1] [0] [0] 1
  dot_S200000x16_S16x16_S200000x16_1_0_0_1_n_n_wf : DotDims.WF S200000x16 S16x16 S200000x16 [1] [0] [0] [1] [] []
  dot_S200000x16_S16x1_S200000x1_1_0_0_1_n_n_wf : DotDims.WF S200000x16 S16x1 S200000x1 [1] [0] [0] [1] [] []
  gather_S200000x1_S6400000x1_S6400000x1_1_0_n_n_0_1_11_wf : GatherDims.WF S200000x1 S6400000x1 S6400000x1 [1] [0] [] [0] [] 1 ![1, 1]
  scatter_S200000x1_S6400000x1_S6400000x1_1_0_0_1_wf : ScatterDims.WF S200000x1 S6400000x1 S6400000x1 [1] [0] [0] 1

variable [Facts₀]

def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def dot_S200000x256_S256x16_S200000x16_1_0_0_1_n_n : DotDims S200000x256 S256x16 S200000x16 where
  lhsContracting := [1]
  rhsContracting := [0]
  lhsNonContracting := [0]
  rhsNonContracting := [1]
  lhsBatch := []
  rhsBatch := []
  wf := dot_S200000x256_S256x16_S200000x16_1_0_0_1_n_n_wf
def gather_S200000_S6400000x1_S6400000_n_0_n_n_0_1_1 : GatherDims S200000 S6400000x1 S6400000 where
  offsetDims := []
  collapsedSliceDims := [0]
  operandBatchingDims := []
  startIndicesBatchingDims := []
  startIndexMap := [0]
  indexVectorDim := 1
  sliceSizes := ![1]
  wf := gather_S200000_S6400000x1_S6400000_n_0_n_n_0_1_1_wf
def gather_S200000x16_S6400000x1_S6400000x16_1_0_n_n_0_1_116 : GatherDims S200000x16 S6400000x1 S6400000x16 where
  offsetDims := [1]
  collapsedSliceDims := [0]
  operandBatchingDims := []
  startIndicesBatchingDims := []
  startIndexMap := [0]
  indexVectorDim := 1
  sliceSizes := ![1, 16]
  wf := gather_S200000x16_S6400000x1_S6400000x16_1_0_n_n_0_1_116_wf
def scatter_S200000x16_S6400000x1_S6400000x16_1_0_0_1 : ScatterDims S200000x16 S6400000x1 S6400000x16 where
  updateWindowDims := [1]
  insertedWindowDims := [0]
  scatterDimsToOperandDims := [0]
  indexVectorDim := 1
  wf := scatter_S200000x16_S6400000x1_S6400000x16_1_0_0_1_wf
def dot_S200000x16_S16x16_S200000x16_1_0_0_1_n_n : DotDims S200000x16 S16x16 S200000x16 where
  lhsContracting := [1]
  rhsContracting := [0]
  lhsNonContracting := [0]
  rhsNonContracting := [1]
  lhsBatch := []
  rhsBatch := []
  wf := dot_S200000x16_S16x16_S200000x16_1_0_0_1_n_n_wf
def dot_S200000x16_S16x1_S200000x1_1_0_0_1_n_n : DotDims S200000x16 S16x1 S200000x1 where
  lhsContracting := [1]
  rhsContracting := [0]
  lhsNonContracting := [0]
  rhsNonContracting := [1]
  lhsBatch := []
  rhsBatch := []
  wf := dot_S200000x16_S16x1_S200000x1_1_0_0_1_n_n_wf
def gather_S200000x1_S6400000x1_S6400000x1_1_0_n_n_0_1_11 : GatherDims S200000x1 S6400000x1 S6400000x1 where
  offsetDims := [1]
  collapsedSliceDims := [0]
  operandBatchingDims := []
  startIndicesBatchingDims := []
  startIndexMap := [0]
  indexVectorDim := 1
  sliceSizes := ![1, 1]
  wf := gather_S200000x1_S6400000x1_S6400000x1_1_0_n_n_0_1_11_wf
def scatter_S200000x1_S6400000x1_S6400000x1_1_0_0_1 : ScatterDims S200000x1 S6400000x1 S6400000x1 where
  updateWindowDims := [1]
  insertedWindowDims := [0]
  scatterDimsToOperandDims := [0]
  indexVectorDim := 1
  wf := scatter_S200000x1_S6400000x1_S6400000x1_1_0_0_1_wf

class Facts : Prop extends Facts₀ where

variable [Facts]
-- ==== Proof.Spec.lean ====
/-
  The mathematics of one graph-convolution layer, stated index by index over the extended reals.

  A layer takes node features `h` (one row per node), a weight matrix `w`, a bias `b`, the per-node
  factor `d` (the squared inverse square root of the degree) and the already aggregated neighbour
  messages `agg`, and returns, at node `p` and channel `q`,

      (agg p q + (h · w) p q * d p) + b q          (then `max · 0` in the two hidden layers).

  `lin` is the dense product `h · w` as a sum over the contracted axis; `comb` the affine combination
  above; `relu` the clamp at zero.  `colVec` / `rowVec` read a one-column, respectively one-row, matrix
  as the vector it holds: the two programs keep `d` and `b` in that form and reach it by different
  layout operations.
-/
import Idealize.ShloMosaic.PureOps.Ideal
import Idealize.ShloMosaic.Lib.ValueIdx

noncomputable section

namespace Cert.Gcn

open Idealize.ShloMosaic Idealize.ShloMosaic.ValueIdx

/-- The dense product: entry `(p, q)` is the sum over `k` of `x (p, k) * w (k, q)`. -/
def lin {A K O : Nat} (x : FVec Ideal ⟨2, ![A, K]⟩ .f32) (w : FVec Ideal ⟨2, ![K, O]⟩ .f32) :
    FVec Ideal ⟨2, ![A, O]⟩ .f32 :=
  fun i => ∑ k : Fin K, x (ix2 ⟨(i 0).val, idx2_lt0 i⟩ k) * w (ix2 k ⟨(i 1).val, idx2_lt1 i⟩)

/-- The layer's affine combination: aggregated messages, plus the node's own transformed features
    scaled by the node's factor, plus the channel's bias — in this order of association. -/
def comb {N C : Nat} (agg hw : FVec Ideal ⟨2, ![N, C]⟩ .f32) (d : FVec Ideal ⟨1, ![N]⟩ .f32)
    (b : FVec Ideal ⟨1, ![C]⟩ .f32) : FVec Ideal ⟨2, ![N, C]⟩ .f32 :=
  fun i => (agg i + hw i * d (ix1 ⟨(i 0).val, idx2_lt0 i⟩)) + b (ix1 ⟨(i 1).val, idx2_lt1 i⟩)

/-- The clamp at zero, entry by entry (the zero is the all-zero word read at `Ideal`). -/
def relu {s : Shape} (v : FVec Ideal s .f32) : FVec Ideal s .f32 :=
  fun i => max (v i) (Ideal.ofBits .f32 0x00000000#32)

/-- A one-column matrix read as the vector of its rows' single entries. -/
def colVec {N : Nat} (v : FVec Ideal ⟨2, ![N, 1]⟩ .f32) : FVec Ideal ⟨1, ![N]⟩ .f32 :=
  fun p => v (ix2 ⟨(p 0).val, (p 0).isLt⟩ (0 : Fin 1))

/-- A one-row matrix read as the vector of its columns' single entries. -/
def rowVec {C : Nat} (v : FVec Ideal ⟨2, ![1, C]⟩ .f32) : FVec Ideal ⟨1, ![C]⟩ .f32 :=
  fun q => v (ix2 (0 : Fin 1) ⟨(q 0).val, (q 0).isLt⟩)

end Cert.Gcn

end
-- ==== Proof.RefLayers.lean ====
/-
  The reference program's three layers are the specification's.

  The reference computes a three-layer graph convolution with plain array operations. This file
  reads each layer's operations entry by entry and identifies them with the specification's terms:
  every dense product is `lin` (a sum over the contracted axis), every layer's tail is `comb`
  (aggregated messages, plus the transformed features scaled by the per-node factor, plus the bias),
  and the two hidden layers end with `relu` (the maximum with zero). The aggregated messages and the
  per-node factor stay the reference's own stages: nothing is said here about how they are computed.
-/
import proofs.«427416_j27908697489547_1_alg».proof.Proof.Gen.ReferenceIdeal.Read
import proofs.«427416_j27908697489547_1_alg».proof.Proof.Spec

noncomputable section

namespace Cert.ReferenceIdeal.Layers

open Cert.ReferenceIdeal Cert.ReferenceIdeal.Gen Cert.ReferenceIdeal.Read Idealize.ShloMosaic Idealize.ShloMosaic.ValueIdx

variable (x0 : FVec Ideal S200000x256 .f32) (x1 : IVec S2x6400000 32) (x2 : FVec Ideal S256x16 .f32) (x3 : FVec Ideal S16 .f32)
  (x4 : FVec Ideal S16x16 .f32) (x5 : FVec Ideal S16 .f32) (x6 : FVec Ideal S16x1 .f32) (x7 : FVec Ideal S1 .f32)

/-! ### Index equations

The generated reading lemmas address an operand through index functions written out coordinate by
coordinate. Each one below is identified with the specification's constructor of the same index:
a contraction reads row `i 0` of the left factor and column `i 1` of the right factor at the summed
position `k`; the two nested broadcasts of the per-node factor read it at the node `i 0`; the two
nested broadcasts of the bias read it at the channel `i 1`. -/

/-- Layer 1's product reads the left factor at `(i 0, k)`. -/
theorem lidx_v12_eq (i : S200000x16.Idx) (k : Fin 256) :
    lidx_main_v12 i k = ix2 ⟨(i 0).val, idx2_lt0 i⟩ k :=
  funext fun a => match a with | ⟨0, _⟩ => rfl | ⟨1, _⟩ => rfl
/-- Layer 1's product reads the right factor at `(k, i 1)`. -/
theorem ridx_v12_eq (i : S200000x16.Idx) (k : Fin 256) :
    ridx_main_v12 i k = ix2 k ⟨(i 1).val, idx2_lt1 i⟩ :=
  funext fun a => match a with | ⟨0, _⟩ => rfl | ⟨1, _⟩ => rfl
/-- Layer 2's product reads the left factor at `(i 0, k)`. -/
theorem lidx_v50_eq (i : S200000x16.Idx) (k : Fin 16) :
    lidx_main_v50 i k = ix2 ⟨(i 0).val, idx2_lt0 i⟩ k :=
  funext fun a => match a with | ⟨0, _⟩ => rfl | ⟨1, _⟩ => rfl
/-- Layer 2's product reads the right factor at `(k, i 1)`. -/
theorem ridx_v50_eq (i : S200000x16.Idx) (k : Fin 16) :
    ridx_main_v50 i k = ix2 k ⟨(i 1).val, idx2_lt1 i⟩ :=
  funext fun a => match a with | ⟨0, _⟩ => rfl | ⟨1, _⟩ => rfl
/-- Layer 3's product reads the left factor at `(i 0, k)`. -/
theorem lidx_v88_eq (i : S200000x1.Idx) (k : Fin 16) :
    lidx_main_v88 i k = ix2 ⟨(i 0).val, idx2_lt0 i⟩ k :=
  funext fun a => match a with | ⟨0, _⟩ => rfl | ⟨1, _⟩ => rfl
/-- Layer 3's product reads the right factor at `(k, i 1)`. -/
theorem ridx_v88_eq (i : S200000x1.Idx) (k : Fin 16) :
    ridx_main_v88 i k = ix2 k ⟨(i 1).val, idx2_lt1 i⟩ :=
  funext fun a => match a with | ⟨0, _⟩ => rfl | ⟨1, _⟩ => rfl

/-- Layer 1: the per-node factor, broadcast to one column and then to all channels, is read at the node. -/
theorem idx_v42_v43_eq (i : S200000x16.Idx) :
    idx_main_v42 (idx_main_v43 i) = ix1 ⟨(i 0).val, idx2_lt0 i⟩ :=
  funext fun a => match a with | ⟨0, _⟩ => rfl
/-- Layer 1: the bias, broadcast to one row and then to all nodes, is read at the channel. -/
theorem idx_v46_v47_eq (i : S200000x16.Idx) :
    idx_main_v46 (idx_main_v47 i) = ix1 ⟨(i 1).val, idx2_lt1 i⟩ :=
  funext fun a => match a with | ⟨0, _⟩ => rfl
/-- Layer 2: the per-node factor, broadcast twice, is read at the node. -/
theorem idx_v80_v81_eq (i : S200000x16.Idx) :
    idx_main_v80 (idx_main_v81 i) = ix1 ⟨(i 0).val, idx2_lt0 i⟩ :=
  funext fun a => match a with | ⟨0, _⟩ => rfl
/-- Layer 2: the bias, broadcast twice, is read at the channel. -/
theorem idx_v84_v85_eq (i : S200000x16.Idx) :
    idx_main_v84 (idx_main_v85 i) = ix1 ⟨(i 1).val, idx2_lt1 i⟩ :=
  funext fun a => match a with | ⟨0, _⟩ => rfl
/-- Layer 3: the per-node factor, broadcast to the single column, is read at the node. -/
theorem idx_v117_eq (i : S200000x1.Idx) :
    idx_main_v117 i = ix1 ⟨(i 0).val, idx2_lt0 i⟩ :=
  funext fun a => match a with | ⟨0, _⟩ => rfl
/-- Layer 3: the one-entry bias, broadcast twice, is read at its only position, which is the
    channel `i 1` because the output has a single channel (`i 1 < 1` forces `i 1 = 0`). -/
theorem idx_v120_v121_eq (i : S200000x1.Idx) :
    idx_main_v120 (idx_main_v121 i) = ix1 ⟨(i 1).val, idx2_lt1 i⟩ :=
  funext fun a => match a with
    | ⟨0, _⟩ => Fin.ext (by have h := idx2_lt1 i; show 0 = (i 1).val; omega)

/-! ### The three dense products

Each `dot_general` of the reference contracts the second axis of its left operand with the first
axis of its right operand; read at an entry it is the sum over the contracted position of the
products, which is the specification's `lin` term by term. -/

/-- Layer 1's product of the input features with the first weight matrix is `lin`. -/
theorem hw1_eq : val_main_v12 (F := Ideal) x0 x2 = Cert.Gcn.lin x0 x2 := by
  funext i
  rw [val_main_v12_apply]
  unfold Cert.Gcn.lin
  refine Finset.sum_congr rfl fun k _ => ?_
  rw [lidx_v12_eq, ridx_v12_eq]

/-- Layer 2's product of the first hidden features with the second weight matrix is `lin`. -/
theorem hw2_eq : val_main_v50 (F := Ideal) x0 x1 x2 x3 x4 = Cert.Gcn.lin (val_main_v49 (F := Ideal) x0 x1 x2 x3) x4 := by
  funext i
  rw [val_main_v50_apply]
  unfold Cert.Gcn.lin
  refine Finset.sum_congr rfl fun k _ => ?_
  rw [lidx_v50_eq, ridx_v50_eq]

/-- Layer 3's product of the second hidden features with the third weight matrix is `lin`. -/
theorem hw3_eq : val_main_v88 (F := Ideal) x0 x1 x2 x3 x4 x5 x6 = Cert.Gcn.lin (val_main_v87 (F := Ideal) x0 x1 x2 x3 x4 x5) x6 := by
  funext i
  rw [val_main_v88_apply]
  unfold Cert.Gcn.lin
  refine Finset.sum_congr rfl fun k _ => ?_
  rw [lidx_v88_eq, ridx_v88_eq]

/-! ### The three combinations

Read at an entry `i`, a layer's tail is
`(agg i + hw i * d (i 0)) + b (i 1)`, the broadcasts only choosing which entry of `d` and `b` is read;
the two hidden layers then take the maximum with the zero array, every entry of which is the
all-zero word's value. On the extended reals the elementwise operations are `+`, `*` and `max`, so
after the index equations both sides are the same expression. -/

/-- Layer 1: the first hidden features are the clamped combination. -/
theorem h1_eq : val_main_v49 (F := Ideal) x0 x1 x2 x3
    = Cert.Gcn.relu (Cert.Gcn.comb (val_main_v40 (F := Ideal) x0 x1 x2) (val_main_v12 (F := Ideal) x0 x2) (val_main_v41 (F := Ideal) x1) x3) := by
  funext i
  rw [val_main_v49_apply, val_main_v48_apply, val_main_v45_apply, val_main_v44_apply, val_main_v43_apply,
    val_main_v42_apply, val_main_v47_apply, val_main_v46_apply, val_main_call0_v0_apply, val_main_call0_cst_apply,
    idx_v42_v43_eq, idx_v46_v47_eq]
  rfl

/-- Layer 2: the second hidden features are the clamped combination. -/
theorem h2_eq : val_main_v87 (F := Ideal) x0 x1 x2 x3 x4 x5
    = Cert.Gcn.relu (Cert.Gcn.comb (val_main_v78 (F := Ideal) x0 x1 x2 x3 x4) (val_main_v50 (F := Ideal) x0 x1 x2 x3 x4) (val_main_v79 (F := Ideal) x1) x5) := by
  funext i
  rw [val_main_v87_apply, val_main_v86_apply, val_main_v83_apply, val_main_v82_apply, val_main_v81_apply,
    val_main_v80_apply, val_main_v85_apply, val_main_v84_apply, val_main_call1_v0_apply, val_main_call1_cst_apply,
    idx_v80_v81_eq, idx_v84_v85_eq]
  rfl

/-- Layer 3: the output is the combination, with no clamp. -/
theorem out_eq : val_main_v122 (F := Ideal) x0 x1 x2 x3 x4 x5 x6 x7
    = Cert.Gcn.comb (val_main_v115 (F := Ideal) x0 x1 x2 x3 x4 x5 x6) (val_main_v88 (F := Ideal) x0 x1 x2 x3 x4 x5 x6) (val_main_v116 (F := Ideal) x1) x7 := by
  funext i
  rw [val_main_v122_apply, val_main_v119_apply, val_main_v118_apply, val_main_v117_apply,
    val_main_v121_apply, val_main_v120_apply, idx_v117_eq, idx_v120_v121_eq]
  rfl

end Cert.ReferenceIdeal.Layers
end
-- ==== Proof.Take.lean ====
import proofs.«427416_j27908697489547_1_alg».proof.Proof.Gen.KernelIdeal
import proofs.«427416_j27908697489547_1_alg».proof.Proof.Gen.Pre_finite_inputs
import Idealize.ShloMosaic.PureOps.Ideal
import Idealize.ShloMosaic.Lib.ValueIdx
import Idealize.ShloMosaic.Lib.ReduceAll

/-!
# Row gathers at node ids that are in range

A row gather "take" wraps a negative node id by adding the node count 200000, tests the wrapped id for
0 ≤ id ≤ 199999, gathers (clamping), and keeps the gathered row where the test passed and a not-a-number word
elsewhere. When every id already lies in [0, 200000) the wrap is the identity, the test passes in every row, and
the selection is the plain gather. The last part reads the range fact "0 ≤ id < 200000 at every edge" out of a
precondition that ends in the conjunction, over all edges, of exactly those two comparisons.
-/

noncomputable section

namespace Cert.KernelIdeal.Take

open Cert.KernelIdeal Cert.KernelIdeal.Gen Idealize.ShloMosaic

/-! ## One-bit conjunctions -/

/-- A left fold by "and" that starts at the bit 1 and meets only 1s ends at 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- A reduction by "and" of an array of 1s, from the initial bit 1, is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  unfold Host.reduce
  rw [hi]
  exact foldl_andi_ones (fun n => x (s.rowMajor.symm n)) (fun n => hx _) _

/-! ## Signed comparisons of a 32-bit word with 0, 199999 and 200000 -/

/-- A word that is at least 0 (signed) is not below 0, so the wrap "w < 0 ? w + 200000 : w" leaves it alone. -/
theorem wrap_of_nonneg (w : BitVec 32) (h0 : IntOp.cmpi .sge w 0#32 = 1#1) :
    Scalar.select (IntOp.cmpi .slt w 0#32) (IntOp.addi w 200000#32) w = w := by
  have hz : IntOp.cmpi .slt w 0#32 = 0#1 := by
    apply ValueIdx.eq_zero_of_ne_one
    intro h1
    have h0' : BitVec.ofBool ((0#32 : BitVec 32).sle w) = 1#1 := h0
    have h1' : BitVec.ofBool (w.slt (0#32 : BitVec 32)) = 1#1 := h1
    have e0 : (0#32 : BitVec 32).toInt = 0 := by decide
    rcases hb : (0#32 : BitVec 32).sle w with _ | _
    · rw [hb] at h0'; exact absurd h0' (by decide)
    · rcases hc : w.slt (0#32 : BitVec 32) with _ | _
      · rw [hc] at h1'; exact absurd h1' (by decide)
      · simp only [BitVec.sle, BitVec.slt, decide_eq_true_eq, e0] at hb hc
        omega
  rw [hz]
  exact ValueIdx.select_zero _ _

/-- Signed, "w < 200000" gives "w ≤ 199999": no integer lies strictly between. -/
theorem sle_of_slt (w : BitVec 32) (h : IntOp.cmpi .slt w 200000#32 = 1#1) : IntOp.cmpi .sle w 199999#32 = 1#1 := by
  have h' : BitVec.ofBool (w.slt (200000#32 : BitVec 32)) = 1#1 := h
  show BitVec.ofBool (w.sle (199999#32 : BitVec 32)) = 1#1
  have e1 : (200000#32 : BitVec 32).toInt = 200000 := by decide
  have e2 : (199999#32 : BitVec 32).toInt = 199999 := by decide
  rcases hc : w.slt (200000#32 : BitVec 32) with _ | _
  · rw [hc] at h'; exact absurd h' (by decide)
  · have hle : w.sle (199999#32 : BitVec 32) = true := by
      simp only [BitVec.sle, BitVec.slt, decide_eq_true_eq, e1, e2] at hc ⊢
      omega
    rw [hle]; rfl

/-! ## The wrapped id column and its range test -/

/-- The id vector with negative ids wrapped by the node count, laid out as a column. -/
abbrev wrapped (s : IVec S6400000 32) : IVec S6400000x1 32 :=
  broadcastInDim S6400000x1 ![0] bcast_S6400000_S6400000x1_0
    (select (cmpi .slt s (broadcastInDim S6400000 ![] bcast_S_S6400000 (constantI S_ 32 0#32)))
      (addi s (broadcastInDim S6400000 ![] bcast_S_S6400000 (constantI S_ 32 200000#32))) s)

/-- The range test of an id column: per row, the conjunction over the row's one entry of "0 ≤ id" and "id ≤ 199999". -/
abbrev inside (ix : IVec S6400000x1 32) : IVec S6400000 1 :=
  Host.reduce IntOp.andi
    (andi (cmpi .sge ix (broadcastInDim S6400000x1 ![] bcast_S_S6400000x1 (constantI S_ 32 0#32)))
          (cmpi .sle ix (broadcastInDim S6400000x1 ![0, 1] bcast_S1x1_S6400000x1_0_1
            (broadcastInDim S1x1 ![1] bcast_S1_S1x1_1 (constantI S1 32 199999#32)))))
    (constantI S_ 1 1#1) reducesTo_S6400000x1_S6400000_d1 h_S_

/-- When the ids are at least 0, every entry of the wrapped column is an entry of the id vector itself: the column
    reads the wrapped vector at some position, and there the wrap is the identity. -/
theorem wrapped_apply (s : IVec S6400000 32)
    (hs : ∀ e : S6400000.Idx, IntOp.cmpi .sge (s e) 0#32 = 1#1 ∧ IntOp.cmpi .slt (s e) 200000#32 = 1#1)
    (i : S6400000x1.Idx) : ∃ e : S6400000.Idx, wrapped s i = s e := by
  unfold wrapped broadcastInDim
  exact ⟨_, wrap_of_nonneg _ (hs _).1⟩

/-- With every id in [0, 200000) the test "0 ≤ wrapped id ≤ 199999" passes in every row: each entry of the column is an
    id, which is at least 0 and, being below 200000, at most 199999; a conjunction of 1s is 1. -/
theorem inside_wrapped (s : IVec S6400000 32)
    (hs : ∀ e : S6400000.Idx, IntOp.cmpi .sge (s e) 0#32 = 1#1 ∧ IntOp.cmpi .slt (s e) 200000#32 = 1#1) :
    inside (wrapped s) = fun _ => 1#1 := by
  funext e
  refine reduce_andi_ones _ _ _ _ (fun i => ?_) rfl e
  obtain ⟨k, hk⟩ := wrapped_apply s hs i
  show IntOp.andi (IntOp.cmpi .sge (wrapped s i) 0#32) (IntOp.cmpi .sle (wrapped s i) 199999#32) = 1#1
  rw [hk, (hs k).1, sle_of_slt _ (hs k).2]
  rfl

/-! ## The selection is the gather -/

/-- Sixteen columns: the mask, the row test laid along the rows, is 1 at every entry, so the selection between the
    gathered rows and the not-a-number word takes the gathered rows everywhere. -/
theorem take16 (hw : FVec Ideal S200000x16 .f32) (s : IVec S6400000 32)
    (hs : ∀ e : S6400000.Idx, IntOp.cmpi .sge (s e) 0#32 = 1#1 ∧ IntOp.cmpi .slt (s e) 200000#32 = 1#1) :
    select (broadcastInDim S6400000x16 ![0] bcast_S6400000_S6400000x16_0 (inside (wrapped s)))
        (Host.gather gather_S200000x16_S6400000x1_S6400000x16_1_0_n_n_0_1_116 hw (wrapped s))
        (broadcastInDim S6400000x16 ![] bcast_S_S6400000x16 (constant (F := Ideal) S_ .f32 0x7FC00000#32))
      = Host.gather gather_S200000x16_S6400000x1_S6400000x16_1_0_n_n_0_1_116 hw (wrapped s) := by
  funext i
  have hb : broadcastInDim S6400000x16 ![0] bcast_S6400000_S6400000x16_0 (inside (wrapped s)) i = 1#1 := by
    unfold broadcastInDim
    exact congrFun (inside_wrapped s hs) _
  show Scalar.select (broadcastInDim S6400000x16 ![0] bcast_S6400000_S6400000x16_0 (inside (wrapped s)) i) _ _ = _
  rw [hb]
  exact ValueIdx.select_one _ _

/-- One column: the same, the mask being the row test laid out as a column. -/
theorem take1 (hw : FVec Ideal S200000x1 .f32) (s : IVec S6400000 32)
    (hs : ∀ e : S6400000.Idx, IntOp.cmpi .sge (s e) 0#32 = 1#1 ∧ IntOp.cmpi .slt (s e) 200000#32 = 1#1) :
    select (broadcastInDim S6400000x1 ![0] bcast_S6400000_S6400000x1_0 (inside (wrapped s)))
        (Host.gather gather_S200000x1_S6400000x1_S6400000x1_1_0_n_n_0_1_11 hw (wrapped s))
        (broadcastInDim S6400000x1 ![] bcast_S_S6400000x1 (constant (F := Ideal) S_ .f32 0x7FC00000#32))
      = Host.gather gather_S200000x1_S6400000x1_S6400000x1_1_0_n_n_0_1_11 hw (wrapped s) := by
  funext i
  have hb : broadcastInDim S6400000x1 ![0] bcast_S6400000_S6400000x1_0 (inside (wrapped s)) i = 1#1 := by
    unfold broadcastInDim
    exact congrFun (inside_wrapped s hs) _
  show Scalar.select (broadcastInDim S6400000x1 ![0] bcast_S6400000_S6400000x1_0 (inside (wrapped s)) i) _ _ = _
  rw [hb]
  exact ValueIdx.select_one _ _

/-! ## The range fact, read out of the precondition -/

/-- The precondition's tail is a conjunction of bits whose last is, over all edges, the conjunction of "0 ≤ id" and
    "id < 200000" of the edge's source id. Where the whole is 1 that last bit is 1; a conjunction over all edges that is 1
    had a 1 at every edge; and a 1 there says both comparisons hold at that edge. -/
theorem part2_src (v1 : IVec Cert.Pre_finite_inputs.S6400000 32) (v30 : IVec Cert.Pre_finite_inputs.S_ 1)
    (v33 : IVec Cert.Pre_finite_inputs.S1 1) (c11 : IVec Cert.Pre_finite_inputs.S_ 1)
    (h : Cert.Pre_finite_inputs.fn_part2 (F := Ideal) v1 v30 v33 c11 ValueIdx.ix0 = 1#1)
    (e : Cert.Pre_finite_inputs.S6400000.Idx) :
    IntOp.cmpi .sge (v1 e) 0#32 = 1#1 ∧ IntOp.cmpi .slt (v1 e) 200000#32 = 1#1 := by
  -- the scalar shape has one index
  haveI : Subsingleton Cert.Pre_finite_inputs.S_.Idx := ⟨fun a b => funext fun d => d.elim0⟩
  unfold Cert.Pre_finite_inputs.fn_part2 at h
  have h41 := (IntOp.andi_eq_one.1 h).2
  have h40 := Host.reduce_andi_all _ _ _ _ _ h41 e
  exact IntOp.andi_eq_one.1 h40

/-- Under the precondition every source node id — row 0 of the edge table, read as a vector — is at least 0 and below
    200000: the precondition's chain of conjunctions ends in the tail above, at that vector. -/
theorem src_in_range (a0 : FVec Ideal Cert.Pre_finite_inputs.S200000x256 .f32) (a1 : IVec Cert.Pre_finite_inputs.S2x6400000 32)
    (a2 : FVec Ideal Cert.Pre_finite_inputs.S256x16 .f32) (a3 : FVec Ideal Cert.Pre_finite_inputs.S16 .f32)
    (a4 : FVec Ideal Cert.Pre_finite_inputs.S16x16 .f32) (a5 : FVec Ideal Cert.Pre_finite_inputs.S16 .f32)
    (a6 : FVec Ideal Cert.Pre_finite_inputs.S16x1 .f32) (a7 : FVec Ideal Cert.Pre_finite_inputs.S1 .f32)
    (h : Cert.Pre_finite_inputs.fn (F := Ideal) a0 a1 a2 a3 a4 a5 a6 a7 = fun _ => 1#1) :
    ∀ e : S6400000.Idx,
      IntOp.cmpi .sge ((shapeCast S6400000 (extractStridedSlice S1x6400000 ![0, 0] a1 slices_S2x6400000_S1x6400000_0_0) shapeCasts_S1x6400000_S6400000 : IVec S6400000 32) e) 0#32 = 1#1
      ∧ IntOp.cmpi .slt ((shapeCast S6400000 (extractStridedSlice S1x6400000 ![0, 0] a1 slices_S2x6400000_S1x6400000_0_0) shapeCasts_S1x6400000_S6400000 : IVec S6400000 32) e) 200000#32 = 1#1 := by
  intro e
  have h0 : Cert.Pre_finite_inputs.fn_part2 (F := Ideal)
      (shapeCast S6400000 (extractStridedSlice S1x6400000 ![0, 0] a1 slices_S2x6400000_S1x6400000_0_0) shapeCasts_S1x6400000_S6400000)
      _ _ _ ValueIdx.ix0 = 1#1 := congrFun h ValueIdx.ix0
  exact part2_src _ _ _ _ h0 e

end Cert.KernelIdeal.Take
end
-- ==== Proof.LibColumns.lean ====
/-
  A column kept by a row reduction: the two layout operations a sum over the last axis with the axis kept
  (`keepdims`) goes through before it meets the array it was taken from again, read at an index.

  An `[a]` vector of row values is cast to an `[a, 1]` column (row-major order is unchanged: entry `i` of the
  vector is entry `(i, 0)` of the column), and the column is broadcast along the second axis to `[a, b]`
  (every entry of row `p` reads the column at `p`). Both over any element type and any extents.
-/
import Idealize.ShloMosaic.Lib.Pipeline.Value
import Idealize.ShloMosaic.Lib.ValueIdx

namespace Cert.Columns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.Columns
-- ==== Proof.Lin0.lean ====
/-
  The first dense layer.  The region multiplies the node features (200000 rows of 256 entries) by the
  weight matrix (256 by 16), forty blocks of 5000 rows at a time.  Here: one entry of a block's product
  as a sum over the contracted axis; each block of the two operands as rows of its array; what a grid
  point writes back as a block of the dense product `Cert.Gcn.lin` of the two arrays; and, the blocks
  filling the result's rows, the result array after the region as that product.
-/
import proofs.«427416_j27908697489547_1_alg».proof.Proof.Gen.KernelIdeal.Frame
import proofs.«427416_j27908697489547_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Lin0

open Cert.KernelIdeal Cert.KernelIdeal.Gen Idealize.ShloMosaic Idealize.ShloMosaic.TcCoe Idealize.SL.Sem
open Idealize.ShloMosaic.Pipeline (Dat Cfg Window)
open Idealize.ShloMosaic.ValueIdx

/-! ## The contraction's operand indices

The product contracts the left operand's axis 1 with the right operand's axis 0; the left operand's
axis 0 is the result's row and the right operand's axis 1 the result's column. -/

theorem lhs_row (i : S5000x16.Idx) (q : dot_S5000x256_S256x16_S5000x16_1_0_0_1_n_n.contr.Idx) :
    (dot_S5000x256_S256x16_S5000x16_1_0_0_1_n_n.lhsIdx i q 0).val = (i 0).val := by
  unfold DotDims.lhsIdx
  rw [dif_neg (show ¬(0 : Fin S5000x256.rank) ∈ dot_S5000x256_S256x16_S5000x16_1_0_0_1_n_n.lhsBatch by decide), dif_pos (show (0 : Fin S5000x256.rank) ∈ dot_S5000x256_S256x16_S5000x16_1_0_0_1_n_n.lhsNonContracting by decide)]
  rfl
theorem lhs_contr (i : S5000x16.Idx) (q : dot_S5000x256_S256x16_S5000x16_1_0_0_1_n_n.contr.Idx) :
    (dot_S5000x256_S256x16_S5000x16_1_0_0_1_n_n.lhsIdx i q 1).val = (q ⟨0, by decide⟩).val :=
  dot_S5000x256_S256x16_S5000x16_1_0_0_1_n_n.lhsIdx_val_of_single rfl i q
theorem rhs_contr (i : S5000x16.Idx) (q : dot_S5000x256_S256x16_S5000x16_1_0_0_1_n_n.contr.Idx) :
    (dot_S5000x256_S256x16_S5000x16_1_0_0_1_n_n.rhsIdx i q 0).val = (q ⟨0, by decide⟩).val :=
  dot_S5000x256_S256x16_S5000x16_1_0_0_1_n_n.rhsIdx_val_of_single rfl i q
theorem rhs_col (i : S5000x16.Idx) (q : dot_S5000x256_S256x16_S5000x16_1_0_0_1_n_n.contr.Idx) :
    (dot_S5000x256_S256x16_S5000x16_1_0_0_1_n_n.rhsIdx i q 1).val = (i 1).val := by
  unfold DotDims.rhsIdx
  rw [dif_neg (show ¬(1 : Fin S256x16.rank) ∈ dot_S5000x256_S256x16_S5000x16_1_0_0_1_n_n.rhsBatch by decide), dif_pos (show (1 : Fin S256x16.rank) ∈ dot_S5000x256_S256x16_S5000x16_1_0_0_1_n_n.rhsNonContracting by decide)]
  rfl

/-! ## The body's product at an entry -/

/-- Entry `(p, q)` of the block the body stores is the sum over the contracted axis of the products of
    row `p` of the left block with column `q` of the weights: the casts to the narrower format are the
    identity on extended reals and the accumulator starts at zero. -/
theorem pay_apply (x0 : Vec Ideal S5000x256 .f32) (x1 : Vec Ideal S256x16 .f32) (p : Fin 5000) (q : Fin 16) :
    k0_pay1 x0 x1 (ix2 p q) = ∑ k : Fin 256, x0 (ix2 p k) * x1 (ix2 k q) := by
  unfold k0_pay1
  refine (Ideal.matmul_constant_zero_apply _ none _ _ _).trans ?_
  rw [← Equiv.sum_comp (contrEquiv1 dot_S5000x256_S256x16_S5000x16_1_0_0_1_n_n 256 rfl rfl).symm]
  refine Finset.sum_congr rfl fun k _ => ?_
  have hk := contrEquiv1_symm_val dot_S5000x256_S256x16_S5000x16_1_0_0_1_n_n 256 rfl rfl k
  have el : dot_S5000x256_S256x16_S5000x16_1_0_0_1_n_n.lhsIdx (ix2 p q) ((contrEquiv1 dot_S5000x256_S256x16_S5000x16_1_0_0_1_n_n 256 rfl rfl).symm k) = ix2 p k := funext fun a => Fin.ext (by
    match a with
    | ⟨0, _⟩ => exact lhs_row _ _
    | ⟨1, _⟩ => exact (lhs_contr _ _).trans hk)
  have er : dot_S5000x256_S256x16_S5000x16_1_0_0_1_n_n.rhsIdx (ix2 p q) ((contrEquiv1 dot_S5000x256_S256x16_S5000x16_1_0_0_1_n_n 256 rfl rfl).symm k) = ix2 k q := funext fun a => Fin.ext (by
    match a with
    | ⟨0, _⟩ => exact (rhs_contr _ _).trans hk
    | ⟨1, _⟩ => exact rhs_col _ _)
  rw [truncf_apply, truncf_apply, el, er]

/-! ## The blocks of the two operands

A block's coordinate is the block index times the block's extent plus the coordinate inside the block.
The index maps over the grid: the left operand and the result move down the rows with the point, the
weights stay where they are. -/

variable (V : (c : Dev nD) → (b : Ref sig .tc) → Buf (Elt Ideal) ((c : Thread nD τ).loc b))

theorem zero_offsets : (![0, 0] : Fin 2 → Nat) = fun _ => 0 := funext fun a => by fin_cases a <;> rfl

theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` holds rows `5000 t … 5000 t + 4999` of its array. -/
theorem rows_apply (c : Dev nD) (t : Fin cfg0.N) (p : Fin 5000) (k : Fin 256) (r : Fin 200000)
    (h : r.val = 5000 * t.val + p.val) :
    (iblk0 V c 0 t : Vec Ideal S5000x256 .f32) (ix2 p k) = (V c main_arg0 : S200000x256.Idx → EReal) (ix2 r k) := by
  obtain ⟨e0, e1, -⟩ := index_maps t
  show V c main_arg0 (((cfg0.win 0).blk t).view.emb (ix2 p k)) = V c main_arg0 (ix2 r k)
  congr 1
  funext a
  apply Fin.ext
  match a with
  | ⟨0, _⟩ => show win0_0.index t (0 : Fin 2) * 5000 + 1 * p.val = r.val; rw [e0, h]; omega
  | ⟨1, _⟩ => show win0_0.index t (1 : Fin 2) * 256 + 1 * k.val = k.val; rw [e1]; omega

/-- The weights' block at every point is the whole weight matrix. -/
theorem weights_apply (c : Dev nD) (t : Fin cfg0.N) (k : Fin 256) (q : Fin 16) (r : Fin 16)
    (h : r.val = q.val) :
    (iblk0 V c 1 t : Vec Ideal S256x16 .f32) (ix2 k q) = (V c main_arg2 : S256x16.Idx → EReal) (ix2 k r) := by
  obtain ⟨-, -, e2, e3, -⟩ := index_maps t
  show V c main_arg2 (((cfg0.win 1).blk t).view.emb (ix2 k q)) = V c main_arg2 (ix2 k r)
  congr 1
  funext a
  apply Fin.ext
  match a with
  | ⟨0, _⟩ => show win0_1.index t (0 : Fin 2) * 256 + 1 * k.val = k.val; rw [e2]; omega
  | ⟨1, _⟩ => show win0_1.index t (1 : Fin 2) * 16 + 1 * q.val = r.val; rw [e3, h]; omega

/-! ## What a point writes back -/

/-- Point `t` writes back block `t` of the dense product of the two arrays. -/
theorem flushed_eq (c : Dev nD) (t : Fin cfg0.N) :
    (dat0 (F := Ideal) V c).flushed 2 t
      = ((cfg0.win 2).blk t).view.read (Elt Ideal) (Cert.Gcn.lin (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x256) zero_offsets, View.ld_unit_zero (S := S256x16) zero_offsets]
  obtain ⟨-, -, -, -, e4, e5⟩ := index_maps t
  funext j
  obtain ⟨p, q, rfl⟩ : ∃ (p : Fin 5000) (q : Fin 16), j = ix2 p q := ⟨j 0, j 1, eq_ix2 j⟩
  show k0_pay1 (iblk0 V c 0 t) (iblk0 V c 1 t) (ix2 p q)
    = Cert.Gcn.lin (V c main_arg0) (V c main_arg2) (((cfg0.win 2).blk t).view.emb (ix2 p q))
  rw [pay_apply (iblk0 V c 0 t) (iblk0 V c 1 t) p q]
  unfold Cert.Gcn.lin
  refine Finset.sum_congr rfl fun k _ => ?_
  have r0 : ((((cfg0.win 2).blk t).view.emb (ix2 p q)) 0).val = 5000 * t.val + p.val := by
    show win0_2.index t (0 : Fin 2) * 5000 + 1 * p.val = _; rw [e4]; omega
  have r1 : ((((cfg0.win 2).blk t).view.emb (ix2 p q)) 1).val = q.val := by
    show win0_2.index t (1 : Fin 2) * 16 + 1 * q.val = _; rw [e5]; omega
  congr 1
  · exact rows_apply V c t p k _ r0
  · exact weights_apply V c t k q _ r1

/-! ## From the blocks to the array -/

/-- An entry of the result array lies in point `t`'s block iff each coordinate lies in the block's range. -/
theorem mem_blk (t : Fin cfg0.N) (i : S200000x16.Idx) :
    i ∈ ((cfg0.win 2).blk t).view.set ↔ ∀ a : Fin 2, win0_2.index t a * S5000x16.size a ≤ (i a).val
      ∧ (i a).val < win0_2.index t a * S5000x16.size a + S5000x16.size a := by
  show i ∈ ((View.whole main_v29).slice (win0_2.rect t)).set ↔ _
  rw [View.set_slice_whole, Rect.mem_set_unit]
  exact Iff.rfl

/-- Row `r` lies in the block of point `r / 5000`: the 40 blocks of 5000 rows fill the 200000 rows. -/
theorem covered (i : S200000x16.Idx) :
    ∃ t : Fin cfg0.N, (cfg0.win 2).flush t = true ∧ i ∈ ((cfg0.win 2).blk t).view.set := by
  have hi0 : (i 0).val < 200000 := (i 0).isLt
  have hi1 : (i 1).val < 16 := (i 1).isLt
  have hN : cfg0.N = 40 := N_0
  let t : Fin cfg0.N := ⟨(i 0).val / 5000, by rw [hN]; omega⟩
  obtain ⟨-, -, -, -, e4, e5⟩ := index_maps t
  have ht : t.val = (i 0).val / 5000 := rfl
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 16 ≤ (i 1).val ∧ (i 1).val < win0_2.index t (1 : Fin 2) * 16 + 16
    rw [e5]; omega

/-- The result array after the region is the dense product of the two arrays it found. -/
theorem final (c : Dev nD) :
    (dat0 (F := Ideal) V c).arrAt 2 cfg0.N = Cert.Gcn.lin (V c main_arg0) (V c main_arg2) :=
  (dat0 V c).arrAt_eq_of_cover 2 (Cert.Gcn.lin (V c main_arg0) (V c main_arg2)) (fun t _ => flushed_eq V c t) covered

end Cert.KernelIdeal.Lin0
end
-- ==== Proof.Lin2.lean ====
/-
  The second dense layer.  The region multiplies the first hidden layer's features (200000 rows of 16
  entries) by a square weight matrix (16 by 16), forty blocks of 5000 rows at a time.  Here: one entry
  of a block's product as a sum over the sixteen contracted entries; each block of the two operands as
  rows of its array; what a grid point writes back as a block of the dense product `Cert.Gcn.lin` of
  the two arrays; and, the blocks filling the result's rows, the result array after the region as that
  product.
-/
import proofs.«427416_j27908697489547_1_alg».proof.Proof.Gen.KernelIdeal.Frame
import proofs.«427416_j27908697489547_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Lin2

open Cert.KernelIdeal Cert.KernelIdeal.Gen Idealize.ShloMosaic Idealize.ShloMosaic.TcCoe Idealize.SL.Sem
open Idealize.ShloMosaic.Pipeline (Dat Cfg Window)
open Idealize.ShloMosaic.ValueIdx

/-! ## The contraction's operand indices

The product contracts the left operand's axis 1 with the right operand's axis 0; the left operand's
axis 0 is the result's row and the right operand's axis 1 the result's column. -/

theorem lhs_row (i : S5000x16.Idx) (q : dot_S5000x16_S16x16_S5000x16_1_0_0_1_n_n.contr.Idx) :
    (dot_S5000x16_S16x16_S5000x16_1_0_0_1_n_n.lhsIdx i q 0).val = (i 0).val := by
  unfold DotDims.lhsIdx
  rw [dif_neg (show ¬(0 : Fin S5000x16.rank) ∈ dot_S5000x16_S16x16_S5000x16_1_0_0_1_n_n.lhsBatch by decide), dif_pos (show (0 : Fin S5000x16.rank) ∈ dot_S5000x16_S16x16_S5000x16_1_0_0_1_n_n.lhsNonContracting by decide)]
  rfl
theorem lhs_contr (i : S5000x16.Idx) (q : dot_S5000x16_S16x16_S5000x16_1_0_0_1_n_n.contr.Idx) :
    (dot_S5000x16_S16x16_S5000x16_1_0_0_1_n_n.lhsIdx i q 1).val = (q ⟨0, by decide⟩).val :=
  dot_S5000x16_S16x16_S5000x16_1_0_0_1_n_n.lhsIdx_val_of_single rfl i q
theorem rhs_contr (i : S5000x16.Idx) (q : dot_S5000x16_S16x16_S5000x16_1_0_0_1_n_n.contr.Idx) :
    (dot_S5000x16_S16x16_S5000x16_1_0_0_1_n_n.rhsIdx i q 0).val = (q ⟨0, by decide⟩).val :=
  dot_S5000x16_S16x16_S5000x16_1_0_0_1_n_n.rhsIdx_val_of_single rfl i q
theorem rhs_col (i : S5000x16.Idx) (q : dot_S5000x16_S16x16_S5000x16_1_0_0_1_n_n.contr.Idx) :
    (dot_S5000x16_S16x16_S5000x16_1_0_0_1_n_n.rhsIdx i q 1).val = (i 1).val := by
  unfold DotDims.rhsIdx
  rw [dif_neg (show ¬(1 : Fin S16x16.rank) ∈ dot_S5000x16_S16x16_S5000x16_1_0_0_1_n_n.rhsBatch by decide), dif_pos (show (1 : Fin S16x16.rank) ∈ dot_S5000x16_S16x16_S5000x16_1_0_0_1_n_n.rhsNonContracting by decide)]
  rfl

/-! ## The body's product at an entry -/

/-- Entry `(p, q)` of the block the body stores is the sum over the contracted axis of the products of
    row `p` of the left block with column `q` of the weights: the cast of the left block to its own
    shape is the identity, the casts to the narrower format are the identity on extended reals and the
    accumulator starts at zero. -/
theorem pay_apply (x0 : Vec Ideal S5000x16 .f32) (x1 : Vec Ideal S16x16 .f32) (p : Fin 5000) (q : Fin 16) :
    k2_pay1 x0 x1 (ix2 p q) = ∑ k : Fin 16, x0 (ix2 p k) * x1 (ix2 k q) := by
  unfold k2_pay1
  rw [shapeCast_self]
  refine (Ideal.matmul_constant_zero_apply _ none _ _ _).trans ?_
  rw [← Equiv.sum_comp (contrEquiv1 dot_S5000x16_S16x16_S5000x16_1_0_0_1_n_n 16 rfl rfl).symm]
  refine Finset.sum_congr rfl fun k _ => ?_
  have hk := contrEquiv1_symm_val dot_S5000x16_S16x16_S5000x16_1_0_0_1_n_n 16 rfl rfl k
  have el : dot_S5000x16_S16x16_S5000x16_1_0_0_1_n_n.lhsIdx (ix2 p q) ((contrEquiv1 dot_S5000x16_S16x16_S5000x16_1_0_0_1_n_n 16 rfl rfl).symm k) = ix2 p k := funext fun a => Fin.ext (by
    match a with
    | ⟨0, _⟩ => exact lhs_row _ _
    | ⟨1, _⟩ => exact (lhs_contr _ _).trans hk)
  have er : dot_S5000x16_S16x16_S5000x16_1_0_0_1_n_n.rhsIdx (ix2 p q) ((contrEquiv1 dot_S5000x16_S16x16_S5000x16_1_0_0_1_n_n 16 rfl rfl).symm k) = ix2 k q := funext fun a => Fin.ext (by
    match a with
    | ⟨0, _⟩ => exact (rhs_contr _ _).trans hk
    | ⟨1, _⟩ => exact rhs_col _ _)
  rw [truncf_apply, truncf_apply, el, er]

/-! ## The blocks of the two operands

A block's coordinate is the block index times the block's extent plus the coordinate inside the block.
The index maps over the grid: the left operand and the result move down the rows with the point, the
weights stay where they are. -/

variable (V : (c : Dev nD) → (b : Ref sig .tc) → Buf (Elt Ideal) ((c : Thread nD τ).loc b))

theorem zero_offsets : (![0, 0] : Fin 2 → Nat) = fun _ => 0 := funext fun a => by fin_cases a <;> rfl

theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point `t` holds rows `5000 t … 5000 t + 4999` of its array. -/
theorem rows_apply (c : Dev nD) (t : Fin cfg2.N) (p : Fin 5000) (k : Fin 16) (r : Fin 200000)
    (h : r.val = 5000 * t.val + p.val) :
    (iblk2 V c 0 t : Vec Ideal S5000x16 .f32) (ix2 p k) = (V c main_v38 : S200000x16.Idx → EReal) (ix2 r k) := by
  obtain ⟨e0, e1, -⟩ := index_maps t
  show V c main_v38 (((cfg2.win 0).blk t).view.emb (ix2 p k)) = V c main_v38 (ix2 r k)
  congr 1
  funext a
  apply Fin.ext
  match a with
  | ⟨0, _⟩ => show win2_0.index t (0 : Fin 2) * 5000 + 1 * p.val = r.val; rw [e0, h]; omega
  | ⟨1, _⟩ => show win2_0.index t (1 : Fin 2) * 16 + 1 * k.val = k.val; rw [e1]; omega

/-- The weights' block at every point is the whole weight matrix. -/
theorem weights_apply (c : Dev nD) (t : Fin cfg2.N) (k : Fin 16) (q : Fin 16) (r : Fin 16)
    (h : r.val = q.val) :
    (iblk2 V c 1 t : Vec Ideal S16x16 .f32) (ix2 k q) = (V c main_arg4 : S16x16.Idx → EReal) (ix2 k r) := by
  obtain ⟨-, -, e2, e3, -⟩ := index_maps t
  show V c main_arg4 (((cfg2.win 1).blk t).view.emb (ix2 k q)) = V c main_arg4 (ix2 k r)
  congr 1
  funext a
  apply Fin.ext
  match a with
  | ⟨0, _⟩ => show win2_1.index t (0 : Fin 2) * 16 + 1 * k.val = k.val; rw [e2]; omega
  | ⟨1, _⟩ => show win2_1.index t (1 : Fin 2) * 16 + 1 * q.val = r.val; rw [e3, h]; omega

/-! ## What a point writes back -/

/-- Point `t` writes back block `t` of the dense product of the two arrays. -/
theorem flushed_eq (c : Dev nD) (t : Fin cfg2.N) :
    (dat2 (F := Ideal) V c).flushed 2 t
      = ((cfg2.win 2).blk t).view.read (Elt Ideal) (Cert.Gcn.lin (V c main_v38) (V c main_arg4)) := by
  show (cfg2.win 2).cut (grid2.coords t) ((dat2 V c).after 2 t) = _
  rw [after2_2]
  unfold out2_2
  rw [View.canon_unit_zero zero_offsets]
  simp only [View.ld_unit_zero (S := S5000x16) zero_offsets, View.ld_unit_zero (S := S16x16) zero_offsets]
  obtain ⟨-, -, -, -, e4, e5⟩ := index_maps t
  funext j
  obtain ⟨p, q, rfl⟩ : ∃ (p : Fin 5000) (q : Fin 16), j = ix2 p q := ⟨j 0, j 1, eq_ix2 j⟩
  show k2_pay1 (iblk2 V c 0 t) (iblk2 V c 1 t) (ix2 p q)
    = Cert.Gcn.lin (V c main_v38) (V c main_arg4) (((cfg2.win 2).blk t).view.emb (ix2 p q))
  rw [pay_apply (iblk2 V c 0 t) (iblk2 V c 1 t) p q]
  unfold Cert.Gcn.lin
  refine Finset.sum_congr rfl fun k _ => ?_
  have r0 : ((((cfg2.win 2).blk t).view.emb (ix2 p q)) 0).val = 5000 * t.val + p.val := by
    show win2_2.index t (0 : Fin 2) * 5000 + 1 * p.val = _; rw [e4]; omega
  have r1 : ((((cfg2.win 2).blk t).view.emb (ix2 p q)) 1).val = q.val := by
    show win2_2.index t (1 : Fin 2) * 16 + 1 * q.val = _; rw [e5]; omega
  congr 1
  · exact rows_apply V c t p k _ r0
  · exact weights_apply V c t k q _ r1

/-! ## From the blocks to the array -/

/-- An entry of the result array lies in point `t`'s block iff each coordinate lies in the block's range. -/
theorem mem_blk (t : Fin cfg2.N) (i : S200000x16.Idx) :
    i ∈ ((cfg2.win 2).blk t).view.set ↔ ∀ a : Fin 2, win2_2.index t a * S5000x16.size a ≤ (i a).val
      ∧ (i a).val < win2_2.index t a * S5000x16.size a + S5000x16.size a := by
  show i ∈ ((View.whole main_v39).slice (win2_2.rect t)).set ↔ _
  rw [View.set_slice_whole, Rect.mem_set_unit]
  exact Iff.rfl

/-- Row `r` lies in the block of point `r / 5000`: the 40 blocks of 5000 rows fill the 200000 rows. -/
theorem covered (i : S200000x16.Idx) :
    ∃ t : Fin cfg2.N, (cfg2.win 2).flush t = true ∧ i ∈ ((cfg2.win 2).blk t).view.set := by
  have hi0 : (i 0).val < 200000 := (i 0).isLt
  have hi1 : (i 1).val < 16 := (i 1).isLt
  have hN : cfg2.N = 40 := N_2
  let t : Fin cfg2.N := ⟨(i 0).val / 5000, by rw [hN]; omega⟩
  obtain ⟨-, -, -, -, e4, e5⟩ := index_maps t
  have ht : t.val = (i 0).val / 5000 := rfl
  refine ⟨t, flush2_2 t, ?_⟩
  rw [mem_blk]
  intro a
  match a with
  | ⟨0, _⟩ =>
    show win2_2.index t (0 : Fin 2) * 5000 ≤ (i 0).val ∧ (i 0).val < win2_2.index t (0 : Fin 2) * 5000 + 5000
    rw [e4, ht]; omega
  | ⟨1, _⟩ =>
    show win2_2.index t (1 : Fin 2) * 16 ≤ (i 1).val ∧ (i 1).val < win2_2.index t (1 : Fin 2) * 16 + 16
    rw [e5]; omega

/-- The result array after the region is the dense product of the two arrays it found. -/
theorem final (c : Dev nD) :
    (dat2 (F := Ideal) V c).arrAt 2 cfg2.N = Cert.Gcn.lin (V c main_v38) (V c main_arg4) :=
  (dat2 V c).arrAt_eq_of_cover 2 (Cert.Gcn.lin (V c main_v38) (V c main_arg4)) (fun t _ => flushed_eq V c t) covered

end Cert.KernelIdeal.Lin2
end
-- ==== Proof.Lin4.lean ====
/-
  The last dense layer.  The region multiplies the second hidden layer's features (200000 rows of 16
  entries) by a weight matrix of one column (16 by 1), forty blocks of 5000 rows at a time: every node
  gets one number.  Here: the one entry of a row of a block's product as a sum over the sixteen
  contracted entries; each block of the two operands as rows of its array; what a grid point writes
  back as a block of the dense product `Cert.Gcn.lin` of the two arrays; and, the blocks filling the
  result's rows, the result array after the region as that product.
-/
import proofs.«427416_j27908697489547_1_alg».proof.Proof.Gen.KernelIdeal.Frame
import proofs.«427416_j27908697489547_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Lin4

open Cert.KernelIdeal Cert.KernelIdeal.Gen Idealize.ShloMosaic Idealize.ShloMosaic.TcCoe Idealize.SL.Sem
open Idealize.ShloMosaic.Pipeline (Dat Cfg Window)
open Idealize.ShloMosaic.ValueIdx

/-! ## The contraction's operand indices

The product contracts the left operand's axis 1 with the right operand's axis 0; the left operand's
axis 0 is the result's row and the right operand's axis 1 the result's single column. -/

theorem lhs_row (i : S5000x1.Idx) (q : dot_S5000x16_S16x1_S5000x1_1_0_0_1_n_n.contr.Idx) :
    (dot_S5000x16_S16x1_S5000x1_1_0_0_1_n_n.lhsIdx i q 0).val = (i 0).val := by
  unfold DotDims.lhsIdx
  rw [dif_neg (show ¬(0 : Fin S5000x16.rank) ∈ dot_S5000x16_S16x1_S5000x1_1_0_0_1_n_n.lhsBatch by decide), dif_pos (show (0 : Fin S5000x16.rank) ∈ dot_S5000x16_S16x1_S5000x1_1_0_0_1_n_n.lhsNonContracting by decide)]
  rfl
theorem lhs_contr (i : S5000x1.Idx) (q : dot_S5000x16_S16x1_S5000x1_1_0_0_1_n_n.contr.Idx) :
    (dot_S5000x16_S16x1_S5000x1_1_0_0_1_n_n.lhsIdx i q 1).val = (q ⟨0, by decide⟩).val :=
  dot_S5000x16_S16x1_S5000x1_1_0_0_1_n_n.lhsIdx_val_of_single rfl i q
theorem rhs_contr (i : S5000x1.Idx) (q : dot_S5000x16_S16x1_S5000x1_1_0_0_1_n_n.contr.Idx) :
    (dot_S5000x16_S16x1_S5000x1_1_0_0_1_n_n.rhsIdx i q 0).val = (q ⟨0, by decide⟩).val :=
  dot_S5000x16_S16x1_S5000x1_1_0_0_1_n_n.rhsIdx_val_of_single rfl i q
theorem rhs_col (i : S5000x1.Idx) (q : dot_S5000x16_S16x1_S5000x1_1_0_0_1_n_n.contr.Idx) :
    (dot_S5000x16_S16x1_S5000x1_1_0_0_1_n_n.rhsIdx i q 1).val = (i 1).val := by
  unfold DotDims.rhsIdx
  rw [dif_neg (show ¬(1 : Fin S16x1.rank) ∈ dot_S5000x16_S16x1_S5000x1_1_0_0_1_n_n.rhsBatch by decide), dif_pos (show (1 : Fin S16x1.rank) ∈ dot_S5000x16_S16x1_S5000x1_1_0_0_1_n_n.rhsNonContracting by decide)]
  rfl

/-! ## The body's product at an entry -/

/-- Entry `(p, q)` of the block the body stores is the sum over the contracted axis of the products of
    row `p` of the left block with the weight column: the cast of the left block to its own shape is
    the identity, the casts to the narrower format are the identity on extended reals and the
    accumulator starts at zero. -/
theorem pay_apply (x0 : Vec Ideal S5000x16 .f32) (x1 : Vec Ideal S16x1 .f32) (p : Fin 5000) (q : Fin 1) :
    k4_pay1 x0 x1 (ix2 p q) = ∑ k : Fin 16, x0 (ix2 p k) * x1 (ix2 k q) := by
  unfold k4_pay1
  rw [shapeCast_self]
  refine (Ideal.matmul_constant_zero_apply _ none _ _ _).trans ?_
  rw [← Equiv.sum_comp (contrEquiv1 dot_S5000x16_S16x1_S5000x1_1_0_0_1_n_n 16 rfl rfl).symm]
  refine Finset.sum_congr rfl fun k _ => ?_
  have hk := contrEquiv1_symm_val dot_S5000x16_S16x1_S5000x1_1_0_0_1_n_n 16 rfl rfl k
  have el : dot_S5000x16_S16x1_S5000x1_1_0_0_1_n_n.lhsIdx (ix2 p q) ((contrEquiv1 dot_S5000x16_S16x1_S5000x1_1_0_0_1_n_n 16 rfl rfl).symm k) = ix2 p k := funext fun a => Fin.ext (by
    match a with
    | ⟨0, _⟩ => exact lhs_row _ _
    | ⟨1, _⟩ => exact (lhs_contr _ _).trans hk)
  have er : dot_S5000x16_S16x1_S5000x1_1_0_0_1_n_n.rhsIdx (ix2 p q) ((contrEquiv1 dot_S5000x16_S16x1_S5000x1_1_0_0_1_n_n 16 rfl rfl).symm k) = ix2 k q := funext fun a => Fin.ext (by
    match a with
    | ⟨0, _⟩ => exact (rhs_contr _ _).trans hk
    | ⟨1, _⟩ => exact rhs_col _ _)
  rw [truncf_apply, truncf_apply, el, er]

/-! ## The blocks of the two operands

A block's coordinate is the block index times the block's extent plus the coordinate inside the block.
The index maps over the grid: the left operand and the result move down the rows with the point, the
weight column stays where it is. -/

variable (V : (c : Dev nD) → (b : Ref sig .tc) → Buf (Elt Ideal) ((c : Thread nD τ).loc b))

theorem zero_offsets : (![0, 0] : Fin 2 → Nat) = fun _ => 0 := funext fun a => by fin_cases a <;> rfl

theorem index_maps : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left operand's block at point `t` holds rows `5000 t … 5000 t + 4999` of its array. -/
theorem rows_apply (c : Dev nD) (t : Fin cfg4.N) (p : Fin 5000) (k : Fin 16) (r : Fin 200000)
    (h : r.val = 5000 * t.val + p.val) :
    (iblk4 V c 0 t : Vec Ideal S5000x16 .f32) (ix2 p k) = (V c main_v48 : S200000x16.Idx → EReal) (ix2 r k) := by
  obtain ⟨e0, e1, -⟩ := index_maps t
  show V c main_v48 (((cfg4.win 0).blk t).view.emb (ix2 p k)) = V c main_v48 (ix2 r k)
  congr 1
  funext a
  apply Fin.ext
  match a with
  | ⟨0, _⟩ => show win4_0.index t (0 : Fin 2) * 5000 + 1 * p.val = r.val; rw [e0, h]; omega
  | ⟨1, _⟩ => show win4_0.index t (1 : Fin 2) * 16 + 1 * k.val = k.val; rw [e1]; omega

/-- The weights' block at every point is the whole weight column. -/
theorem weights_apply (c : Dev nD) (t : Fin cfg4.N) (k : Fin 16) (q : Fin 1) (r : Fin 1)
    (h : r.val = q.val) :
    (iblk4 V c 1 t : Vec Ideal S16x1 .f32) (ix2 k q) = (V c main_arg6 : S16x1.Idx → EReal) (ix2 k r) := by
  obtain ⟨-, -, e2, e3, -⟩ := index_maps t
  show V c main_arg6 (((cfg4.win 1).blk t).view.emb (ix2 k q)) = V c main_arg6 (ix2 k r)
  congr 1
  funext a
  apply Fin.ext
  match a with
  | ⟨0, _⟩ => show win4_1.index t (0 : Fin 2) * 16 + 1 * k.val = k.val; rw [e2]; omega
  | ⟨1, _⟩ => show win4_1.index t (1 : Fin 2) * 1 + 1 * q.val = r.val; rw [e3, h]; omega

/-! ## What a point writes back -/

/-- Point `t` writes back block `t` of the dense product of the two arrays. -/
theorem flushed_eq (c : Dev nD) (t : Fin cfg4.N) :
    (dat4 (F := Ideal) V c).flushed 2 t
      = ((cfg4.win 2).blk t).view.read (Elt Ideal) (Cert.Gcn.lin (V c main_v48) (V c main_arg6)) := by
  show (cfg4.win 2).cut (grid4.coords t) ((dat4 V c).after 2 t) = _
  rw [after4_2]
  unfold out4_2
  rw [View.canon_unit_zero zero_offsets]
  simp only [View.ld_unit_zero (S := S5000x16) zero_offsets, View.ld_unit_zero (S := S16x1) zero_offsets]
  obtain ⟨-, -, -, -, e4, e5⟩ := index_maps t
  funext j
  obtain ⟨p, q, rfl⟩ : ∃ (p : Fin 5000) (q : Fin 1), j = ix2 p q := ⟨j 0, j 1, eq_ix2 j⟩
  show k4_pay1 (iblk4 V c 0 t) (iblk4 V c 1 t) (ix2 p q)
    = Cert.Gcn.lin (V c main_v48) (V c main_arg6) (((cfg4.win 2).blk t).view.emb (ix2 p q))
  rw [pay_apply (iblk4 V c 0 t) (iblk4 V c 1 t) p q]
  unfold Cert.Gcn.lin
  refine Finset.sum_congr rfl fun k _ => ?_
  have r0 : ((((cfg4.win 2).blk t).view.emb (ix2 p q)) 0).val = 5000 * t.val + p.val := by
    show win4_2.index t (0 : Fin 2) * 5000 + 1 * p.val = _; rw [e4]; omega
  have r1 : ((((cfg4.win 2).blk t).view.emb (ix2 p q)) 1).val = q.val := by
    show win4_2.index t (1 : Fin 2) * 1 + 1 * q.val = _; rw [e5]; omega
  congr 1
  · exact rows_apply V c t p k _ r0
  · exact weights_apply V c t k q _ r1

/-! ## From the blocks to the array -/

/-- An entry of the result array lies in point `t`'s block iff each coordinate lies in the block's range. -/
theorem mem_blk (t : Fin cfg4.N) (i : S200000x1.Idx) :
    i ∈ ((cfg4.win 2).blk t).view.set ↔ ∀ a : Fin 2, win4_2.index t a * S5000x1.size a ≤ (i a).val
      ∧ (i a).val < win4_2.index t a * S5000x1.size a + S5000x1.size a := by
  show i ∈ ((View.whole main_v49).slice (win4_2.rect t)).set ↔ _
  rw [View.set_slice_whole, Rect.mem_set_unit]
  exact Iff.rfl

/-- Row `r` lies in the block of point `r / 5000`: the 40 blocks of 5000 rows fill the 200000 rows. -/
theorem covered (i : S200000x1.Idx) :
    ∃ t : Fin cfg4.N, (cfg4.win 2).flush t = true ∧ i ∈ ((cfg4.win 2).blk t).view.set := by
  have hi0 : (i 0).val < 200000 := (i 0).isLt
  have hi1 : (i 1).val < 1 := (i 1).isLt
  have hN : cfg4.N = 40 := N_4
  let t : Fin cfg4.N := ⟨(i 0).val / 5000, by rw [hN]; omega⟩
  obtain ⟨-, -, -, -, e4, e5⟩ := index_maps t
  have ht : t.val = (i 0).val / 5000 := rfl
  refine ⟨t, flush4_2 t, ?_⟩
  rw [mem_blk]
  intro a
  match a with
  | ⟨0, _⟩ =>
    show win4_2.index t (0 : Fin 2) * 5000 ≤ (i 0).val ∧ (i 0).val < win4_2.index t (0 : Fin 2) * 5000 + 5000
    rw [e4, ht]; omega
  | ⟨1, _⟩ =>
    show win4_2.index t (1 : Fin 2) * 1 ≤ (i 1).val ∧ (i 1).val < win4_2.index t (1 : Fin 2) * 1 + 1
    rw [e5]; omega

/-- The result array after the region is the dense product of the two arrays it found. -/
theorem final (c : Dev nD) :
    (dat4 (F := Ideal) V c).arrAt 2 cfg4.N = Cert.Gcn.lin (V c main_v48) (V c main_arg6) :=
  (dat4 V c).arrAt_eq_of_cover 2 (Cert.Gcn.lin (V c main_v48) (V c main_arg6)) (fun t _ => flushed_eq V c t) covered

end Cert.KernelIdeal.Lin4
end
-- ==== Proof.Comb1.lean ====
/-
  The value of one hidden layer's combine step.  Every grid point takes a block of 5000 node rows: the
  aggregated messages and the node's own transformed features (16 channels each), the per-node factor as a
  one-column block, and the bias as a one-row matrix kept whole.  It stores, at row `p` and channel `q`,

      max ((agg p q + hw p q * d p) + b q) 0 .

  Read at an index, the stored block is this expression of the blocks' entries; each block's entry is the
  array's entry at row `5000 t + p`; and the forty row blocks fill the 200000 rows.  So the output array
  ends holding the clamped combination of the four arrays, index by index.
-/
import proofs.«427416_j27908697489547_1_alg».proof.Proof.Gen.KernelIdeal.Frame
import proofs.«427416_j27908697489547_1_alg».proof.Proof.Spec
import Idealize.ShloMosaic.Lib.Pipeline.Value
import Idealize.ShloMosaic.Lib.ValueLayout

set_option maxRecDepth 16384

noncomputable section

namespace Cert.KernelIdeal.Comb1

open Cert.KernelIdeal Cert.KernelIdeal.Gen Idealize.ShloMosaic Idealize.ShloMosaic.TcCoe Idealize.SL.Sem
open Idealize.ShloMosaic.Pipeline (Dat Cfg Window)
open Idealize.ShloMosaic.ValueIdx

/-- A one-column matrix repeated along the channel axis reads, at `(p, q)`, its entry `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The block's stored value at row `p`, channel `q`: the aggregate plus the node's own features scaled by the
    node's factor, plus the channel's bias, clamped at zero. -/
theorem pay_apply (d : FVec Ideal S5000x1 .f32) (b : FVec Ideal S1x16 .f32) (a h : FVec Ideal S5000x16 .f32)
    (p : Fin 5000) (q : Fin 16) :
    k1_pay1 (F := Ideal) d b a h (ix2 p q)
      = max ((a (ix2 p q) + h (ix2 p q) * d (ix2 p (0 : Fin 1))) + b (ix2 (0 : Fin 1) q)) (Ideal.ofBits .f32 0x00000000#32) := by
  unfold k1_pay1
  simp only [shapeCast_self]
  rw [maximumf_apply, addf_apply, addf_apply, mulf_apply, broadcast_apply, broadcastTo_a1_ab_apply, broadcastTo_1b_ab_apply]
  rfl

variable (V : (c : Dev nD) → (b : Ref sig .tc) → Buf (Elt Ideal) ((c : Thread nD τ).loc b))

/-- The layer's result as one array: the combination of the four region-entry arrays, clamped at zero. -/
abbrev result (c : Dev nD) : FVec Ideal ⟨2, ![200000, 16]⟩ .f32 :=
  Cert.Gcn.relu (Cert.Gcn.comb (V c main_v36) (V c main_v29) (Cert.Gcn.colVec (V c main_v13)) (Cert.Gcn.rowVec (V c main_v37)))

theorem zero_offsets : (![0, 0] : Fin 2 → Nat) = fun _ => 0 := funext fun a => by fin_cases a <;> rfl

/-- The block indices over the grid: the two matrices, the factor column and the output move one row block a point,
    the bias row stays. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The clamped combination at an array index `i`, from the four arrays each read where its block's rectangle
    puts the entry: the two matrices at `i`, the factor column at `i`'s row, the bias row at `i`'s channel. -/
theorem entry_eq (A H : FVec Ideal S200000x16 .f32) (D : FVec Ideal S200000x1 .f32) (B : FVec Ideal S1x16 .f32)
    (i i0 i1 : S200000x16.Idx) (k : S200000x1.Idx) (l : S1x16.Idx) (h0 : i0 = i) (h1 : i1 = i)
    (h2 : k = ix2 ⟨(i 0).val, idx2_lt0 i⟩ (0 : Fin 1)) (h3 : l = ix2 (0 : Fin 1) ⟨(i 1).val, idx2_lt1 i⟩) :
    max ((A i0 + H i1 * D k) + B l) (Ideal.ofBits .f32 0x00000000#32)
      = Cert.Gcn.relu (Cert.Gcn.comb A H (Cert.Gcn.colVec D) (Cert.Gcn.rowVec B)) i := by
  subst h0 h1 h2 h3; rfl

/-- What point `t` writes back is block `t` of `result`. -/
theorem flushed_eq (c : Dev nD) (t : Fin cfg1.N) :
    (dat1 (F := Ideal) V c).flushed 4 t = ((cfg1.win 4).blk t).view.read (Elt Ideal) (result V c) := by
  show (cfg1.win 4).cut (grid1.coords t) ((dat1 V c).after 4 t) = _
  rw [after1_4]
  unfold out1_4
  rw [View.canon_unit_zero zero_offsets]
  simp only [View.ld_unit_zero (S := S5000x16) zero_offsets, View.ld_unit_zero (S := S5000x1) zero_offsets,
    View.ld_unit_zero (S := S1x16) zero_offsets]
  obtain ⟨e00, e01, e10, e11, e20, e21, e30, e31, e40, e41⟩ := block_index t
  funext j
  obtain ⟨p, q, rfl⟩ : ∃ (p : Fin 5000) (q : Fin 16), j = ix2 p q := ⟨j 0, j 1, eq_ix2 j⟩
  refine (pay_apply _ _ _ _ p q).trans ?_
  have hp : p.val < 5000 := p.isLt
  have hq : q.val < 16 := q.isLt
  -- the two matrices' blocks lie where the output's block lies
  have h0 : ((cfg1.win 0).blk t).view.emb (ix2 p q) = ((cfg1.win 4).blk t).view.emb (ix2 p q) := by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 16 + 1 * q.val = win1_4.index t (1 : Fin 2) * 16 + 1 * q.val; omega
  have h1 : ((cfg1.win 1).blk t).view.emb (ix2 p q) = ((cfg1.win 4).blk t).view.emb (ix2 p q) := by
    funext a; apply Fin.ext
    match a with
    | ⟨0, _⟩ => show win1_1.index t (0 : Fin 2) * 5000 + 1 * p.val = win1_4.index t (0 : Fin 2) * 5000 + 1 * p.val; omega
    | ⟨1, _⟩ => show win1_1.index t (1 : Fin 2) * 16 + 1 * q.val = win1_4.index t (1 : Fin 2) * 16 + 1 * q.val; omega
  -- the factor column's block holds the same rows, in its one column
  have h2 : ((cfg1.win 2).blk t).view.emb (ix2 p (0 : Fin 1))
      = ix2 ⟨((((cfg1.win 4).blk t).view.emb (ix2 p q)) 0).val, idx2_lt0 (n0 := 200000) (n1 := 16) (((cfg1.win 4).blk t).view.emb (ix2 p q))⟩ (0 : Fin 1) := by
    funext a; apply Fin.ext
    match a with
    | ⟨0, _⟩ => show win1_2.index t (0 : Fin 2) * 5000 + 1 * p.val = win1_4.index t (0 : Fin 2) * 5000 + 1 * p.val; omega
    | ⟨1, _⟩ => show win1_2.index t (1 : Fin 2) * 1 + 1 * 0 = 0; omega
  -- the bias row is whole at every point
  have h3 : ((cfg1.win 3).blk t).view.emb (ix2 (0 : Fin 1) q)
      = ix2 (0 : Fin 1) ⟨((((cfg1.win 4).blk t).view.emb (ix2 p q)) 1).val, idx2_lt1 (n0 := 200000) (n1 := 16) (((cfg1.win 4).blk t).view.emb (ix2 p q))⟩ := by
    funext a; apply Fin.ext
    match a with
    | ⟨0, _⟩ => show win1_3.index t (0 : Fin 2) * 1 + 1 * 0 = 0; omega
    | ⟨1, _⟩ => show win1_3.index t (1 : Fin 2) * 16 + 1 * q.val = win1_4.index t (1 : Fin 2) * 16 + 1 * q.val; omega
  exact entry_eq (V c main_v36) (V c main_v29) (V c main_v13) (V c main_v37) (((cfg1.win 4).blk t).view.emb (ix2 p q))
    (((cfg1.win 0).blk t).view.emb (ix2 p q)) (((cfg1.win 1).blk t).view.emb (ix2 p q))
    (((cfg1.win 2).blk t).view.emb (ix2 p (0 : Fin 1))) (((cfg1.win 3).blk t).view.emb (ix2 (0 : Fin 1) q)) h0 h1 h2 h3

/-- An index of the array is in point `t`'s block iff each coordinate is in the block's range on its axis. -/
theorem mem_blk (t : Fin cfg1.N) (i : S200000x16.Idx) :
    i ∈ ((cfg1.win 4).blk t).view.set
      ↔ ∀ a : Fin 2, win1_4.index t a * S5000x16.size a ≤ (i a).val ∧ (i a).val < win1_4.index t a * S5000x16.size a + S5000x16.size a := by
  show i ∈ ((View.whole main_v38).slice (win1_4.rect t)).set ↔ _
  rw [View.set_slice_whole, Rect.mem_set_unit]
  exact Iff.rfl

/-- The forty row blocks fill the array: row `r` lies in the block of point `r / 5000`. -/
theorem cover (i : S200000x16.Idx) :
    ∃ t : Fin cfg1.N, (cfg1.win 4).flush t = true ∧ i ∈ ((cfg1.win 4).blk t).view.set := by
  have hi0 : (i 0).val < 200000 := (i 0).isLt
  have hi1 : (i 1).val < 16 := (i 1).isLt
  have hN : (i 0).val / 5000 < cfg1.N := by show _ < 40; omega
  obtain ⟨-, -, -, -, -, -, -, -, e40, e41⟩ := block_index ⟨(i 0).val / 5000, hN⟩
  have e40' : win1_4.index ⟨(i 0).val / 5000, hN⟩ (0 : Fin 2) = (i 0).val / 5000 := e40
  refine ⟨⟨(i 0).val / 5000, hN⟩, flush1_4 _, ?_⟩
  rw [mem_blk]
  intro a
  match a with
  | ⟨0, _⟩ =>
    show win1_4.index ⟨(i 0).val / 5000, hN⟩ (0 : Fin 2) * 5000 ≤ (i 0).val
      ∧ (i 0).val < win1_4.index ⟨(i 0).val / 5000, hN⟩ (0 : Fin 2) * 5000 + 5000
    omega
  | ⟨1, _⟩ =>
    show win1_4.index ⟨(i 0).val / 5000, hN⟩ (1 : Fin 2) * 16 ≤ (i 1).val
      ∧ (i 1).val < win1_4.index ⟨(i 0).val / 5000, hN⟩ (1 : Fin 2) * 16 + 16
    omega

/-- The output array after the region: the combination of the region-entry arrays, clamped at zero. -/
theorem final (c : Dev nD) : (dat1 (F := Ideal) V c).arrAt 4 cfg1.N
    = Cert.Gcn.relu (Cert.Gcn.comb (V c main_v36) (V c main_v29) (Cert.Gcn.colVec (V c main_v13)) (Cert.Gcn.rowVec (V c main_v37))) :=
  (dat1 V c).arrAt_eq_of_cover 4 (result V c) (fun t _ => flushed_eq V c t) cover

end Cert.KernelIdeal.Comb1

end
-- ==== Proof.Comb3.lean ====
/-
  The value of one hidden layer's combine step.  Every grid point takes a block of 5000 node rows: the
  aggregated messages and the node's own transformed features (16 channels each), the per-node factor as a
  one-column block, and the bias as a one-row matrix kept whole.  It stores, at row `p` and channel `q`,

      max ((agg p q + hw p q * d p) + b q) 0 .

  Read at an index, the stored block is this expression of the blocks' entries; each block's entry is the
  array's entry at row `5000 t + p`; and the forty row blocks fill the 200000 rows.  So the output array
  ends holding the clamped combination of the four arrays, index by index.
-/
import proofs.«427416_j27908697489547_1_alg».proof.Proof.Gen.KernelIdeal.Frame
import proofs.«427416_j27908697489547_1_alg».proof.Proof.Spec
import Idealize.ShloMosaic.Lib.Pipeline.Value
import Idealize.ShloMosaic.Lib.ValueLayout

set_option maxRecDepth 16384

noncomputable section

namespace Cert.KernelIdeal.Comb3

open Cert.KernelIdeal Cert.KernelIdeal.Gen Idealize.ShloMosaic Idealize.ShloMosaic.TcCoe Idealize.SL.Sem
open Idealize.ShloMosaic.Pipeline (Dat Cfg Window)
open Idealize.ShloMosaic.ValueIdx

/-- A one-column matrix repeated along the channel axis reads, at `(p, q)`, its entry `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The block's stored value at row `p`, channel `q`: the aggregate plus the node's own features scaled by the
    node's factor, plus the channel's bias, clamped at zero. -/
theorem pay_apply (d : FVec Ideal S5000x1 .f32) (b : FVec Ideal S1x16 .f32) (a h : FVec Ideal S5000x16 .f32)
    (p : Fin 5000) (q : Fin 16) :
    k3_pay1 (F := Ideal) d b a h (ix2 p q)
      = max ((a (ix2 p q) + h (ix2 p q) * d (ix2 p (0 : Fin 1))) + b (ix2 (0 : Fin 1) q)) (Ideal.ofBits .f32 0x00000000#32) := by
  unfold k3_pay1
  simp only [shapeCast_self]
  rw [maximumf_apply, addf_apply, addf_apply, mulf_apply, broadcast_apply, broadcastTo_a1_ab_apply, broadcastTo_1b_ab_apply]
  rfl

variable (V : (c : Dev nD) → (b : Ref sig .tc) → Buf (Elt Ideal) ((c : Thread nD τ).loc b))

/-- The layer's result as one array: the combination of the four region-entry arrays, clamped at zero. -/
abbrev result (c : Dev nD) : FVec Ideal ⟨2, ![200000, 16]⟩ .f32 :=
  Cert.Gcn.relu (Cert.Gcn.comb (V c main_v46) (V c main_v39) (Cert.Gcn.colVec (V c main_v13)) (Cert.Gcn.rowVec (V c main_v47)))

theorem zero_offsets : (![0, 0] : Fin 2 → Nat) = fun _ => 0 := funext fun a => by fin_cases a <;> rfl

/-- The block indices over the grid: the two matrices, the factor column and the output move one row block a point,
    the bias row stays. -/
theorem block_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The clamped combination at an array index `i`, from the four arrays each read where its block's rectangle
    puts the entry: the two matrices at `i`, the factor column at `i`'s row, the bias row at `i`'s channel. -/
theorem entry_eq (A H : FVec Ideal S200000x16 .f32) (D : FVec Ideal S200000x1 .f32) (B : FVec Ideal S1x16 .f32)
    (i i0 i1 : S200000x16.Idx) (k : S200000x1.Idx) (l : S1x16.Idx) (h0 : i0 = i) (h1 : i1 = i)
    (h2 : k = ix2 ⟨(i 0).val, idx2_lt0 i⟩ (0 : Fin 1)) (h3 : l = ix2 (0 : Fin 1) ⟨(i 1).val, idx2_lt1 i⟩) :
    max ((A i0 + H i1 * D k) + B l) (Ideal.ofBits .f32 0x00000000#32)
      = Cert.Gcn.relu (Cert.Gcn.comb A H (Cert.Gcn.colVec D) (Cert.Gcn.rowVec B)) i := by
  subst h0 h1 h2 h3; rfl

/-- What point `t` writes back is block `t` of `result`. -/
theorem flushed_eq (c : Dev nD) (t : Fin cfg3.N) :
    (dat3 (F := Ideal) V c).flushed 4 t = ((cfg3.win 4).blk t).view.read (Elt Ideal) (result V c) := by
  show (cfg3.win 4).cut (grid3.coords t) ((dat3 V c).after 4 t) = _
  rw [after3_4]
  unfold out3_4
  rw [View.canon_unit_zero zero_offsets]
  simp only [View.ld_unit_zero (S := S5000x16) zero_offsets, View.ld_unit_zero (S := S5000x1) zero_offsets,
    View.ld_unit_zero (S := S1x16) zero_offsets]
  obtain ⟨e00, e01, e10, e11, e20, e21, e30, e31, e40, e41⟩ := block_index t
  funext j
  obtain ⟨p, q, rfl⟩ : ∃ (p : Fin 5000) (q : Fin 16), j = ix2 p q := ⟨j 0, j 1, eq_ix2 j⟩
  refine (pay_apply _ _ _ _ p q).trans ?_
  have hp : p.val < 5000 := p.isLt
  have hq : q.val < 16 := q.isLt
  -- the two matrices' blocks lie where the output's block lies
  have h0 : ((cfg3.win 0).blk t).view.emb (ix2 p q) = ((cfg3.win 4).blk t).view.emb (ix2 p q) := by
    funext a; apply Fin.ext
    match a with
    | ⟨0, _⟩ => show win3_0.index t (0 : Fin 2) * 5000 + 1 * p.val = win3_4.index t (0 : Fin 2) * 5000 + 1 * p.val; omega
    | ⟨1, _⟩ => show win3_0.index t (1 : Fin 2) * 16 + 1 * q.val = win3_4.index t (1 : Fin 2) * 16 + 1 * q.val; omega
  have h1 : ((cfg3.win 1).blk t).view.emb (ix2 p q) = ((cfg3.win 4).blk t).view.emb (ix2 p q) := by
    funext a; apply Fin.ext
    match a with
    | ⟨0, _⟩ => show win3_1.index t (0 : Fin 2) * 5000 + 1 * p.val = win3_4.index t (0 : Fin 2) * 5000 + 1 * p.val; omega
    | ⟨1, _⟩ => show win3_1.index t (1 : Fin 2) * 16 + 1 * q.val = win3_4.index t (1 : Fin 2) * 16 + 1 * q.val; omega
  -- the factor column's block holds the same rows, in its one column
  have h2 : ((cfg3.win 2).blk t).view.emb (ix2 p (0 : Fin 1))
      = ix2 ⟨((((cfg3.win 4).blk t).view.emb (ix2 p q)) 0).val, idx2_lt0 (n0 := 200000) (n1 := 16) (((cfg3.win 4).blk t).view.emb (ix2 p q))⟩ (0 : Fin 1) := by
    funext a; apply Fin.ext
    match a with
    | ⟨0, _⟩ => show win3_2.index t (0 : Fin 2) * 5000 + 1 * p.val = win3_4.index t (0 : Fin 2) * 5000 + 1 * p.val; omega
    | ⟨1, _⟩ => show win3_2.index t (1 : Fin 2) * 1 + 1 * 0 = 0; omega
  -- the bias row is whole at every point
  have h3 : ((cfg3.win 3).blk t).view.emb (ix2 (0 : Fin 1) q)
      = ix2 (0 : Fin 1) ⟨((((cfg3.win 4).blk t).view.emb (ix2 p q)) 1).val, idx2_lt1 (n0 := 200000) (n1 := 16) (((cfg3.win 4).blk t).view.emb (ix2 p q))⟩ := by
    funext a; apply Fin.ext
    match a with
    | ⟨0, _⟩ => show win3_3.index t (0 : Fin 2) * 1 + 1 * 0 = 0; omega
    | ⟨1, _⟩ => show win3_3.index t (1 : Fin 2) * 16 + 1 * q.val = win3_4.index t (1 : Fin 2) * 16 + 1 * q.val; omega
  exact entry_eq (V c main_v46) (V c main_v39) (V c main_v13) (V c main_v47) (((cfg3.win 4).blk t).view.emb (ix2 p q))
    (((cfg3.win 0).blk t).view.emb (ix2 p q)) (((cfg3.win 1).blk t).view.emb (ix2 p q))
    (((cfg3.win 2).blk t).view.emb (ix2 p (0 : Fin 1))) (((cfg3.win 3).blk t).view.emb (ix2 (0 : Fin 1) q)) h0 h1 h2 h3

/-- An index of the array is in point `t`'s block iff each coordinate is in the block's range on its axis. -/
theorem mem_blk (t : Fin cfg3.N) (i : S200000x16.Idx) :
    i ∈ ((cfg3.win 4).blk t).view.set
      ↔ ∀ a : Fin 2, win3_4.index t a * S5000x16.size a ≤ (i a).val ∧ (i a).val < win3_4.index t a * S5000x16.size a + S5000x16.size a := by
  show i ∈ ((View.whole main_v48).slice (win3_4.rect t)).set ↔ _
  rw [View.set_slice_whole, Rect.mem_set_unit]
  exact Iff.rfl

/-- The forty row blocks fill the array: row `r` lies in the block of point `r / 5000`. -/
theorem cover (i : S200000x16.Idx) :
    ∃ t : Fin cfg3.N, (cfg3.win 4).flush t = true ∧ i ∈ ((cfg3.win 4).blk t).view.set := by
  have hi0 : (i 0).val < 200000 := (i 0).isLt
  have hi1 : (i 1).val < 16 := (i 1).isLt
  have hN : (i 0).val / 5000 < cfg3.N := by show _ < 40; omega
  obtain ⟨-, -, -, -, -, -, -, -, e40, e41⟩ := block_index ⟨(i 0).val / 5000, hN⟩
  have e40' : win3_4.index ⟨(i 0).val / 5000, hN⟩ (0 : Fin 2) = (i 0).val / 5000 := e40
  refine ⟨⟨(i 0).val / 5000, hN⟩, flush3_4 _, ?_⟩
  rw [mem_blk]
  intro a
  match a with
  | ⟨0, _⟩ =>
    show win3_4.index ⟨(i 0).val / 5000, hN⟩ (0 : Fin 2) * 5000 ≤ (i 0).val
      ∧ (i 0).val < win3_4.index ⟨(i 0).val / 5000, hN⟩ (0 : Fin 2) * 5000 + 5000
    omega
  | ⟨1, _⟩ =>
    show win3_4.index ⟨(i 0).val / 5000, hN⟩ (1 : Fin 2) * 16 ≤ (i 1).val
      ∧ (i 1).val < win3_4.index ⟨(i 0).val / 5000, hN⟩ (1 : Fin 2) * 16 + 16
    omega

/-- The output array after the region: the combination of the region-entry arrays, clamped at zero. -/
theorem final (c : Dev nD) : (dat3 (F := Ideal) V c).arrAt 4 cfg3.N
    = Cert.Gcn.relu (Cert.Gcn.comb (V c main_v46) (V c main_v39) (Cert.Gcn.colVec (V c main_v13)) (Cert.Gcn.rowVec (V c main_v47))) :=
  (dat3 V c).arrAt_eq_of_cover 4 (result V c) (fun t _ => flushed_eq V c t) cover

end Cert.KernelIdeal.Comb3

end
-- ==== Proof.Comb5.lean ====
/-
  The value of the last layer's combine step: one channel and no clamp.  Every grid point takes a block of
  5000 node rows, each a one-column block: the aggregated messages, the node's own transformed feature and the
  per-node factor; the bias is a single entry kept whole.  It stores, at row `p`,

      (agg p + hw p * d p) + b .

  Read at an index, the stored block is this expression of the blocks' entries; each block's entry is the
  array's entry at row `5000 t + p`; and the forty row blocks fill the 200000 rows.  So the output array
  ends holding the combination of the four arrays, index by index.
-/
import proofs.«427416_j27908697489547_1_alg».proof.Proof.Gen.KernelIdeal.Frame
import proofs.«427416_j27908697489547_1_alg».proof.Proof.Spec
import Idealize.ShloMosaic.Lib.Pipeline.Value
import Idealize.ShloMosaic.Lib.ValueLayout

set_option maxRecDepth 16384

noncomputable section

namespace Cert.KernelIdeal.Comb5

open Cert.KernelIdeal Cert.KernelIdeal.Gen Idealize.ShloMosaic Idealize.ShloMosaic.TcCoe Idealize.SL.Sem
open Idealize.ShloMosaic.Pipeline (Dat Cfg Window)
open Idealize.ShloMosaic.ValueIdx

/-- The block's stored value at row `p` (and the one channel `q`): the aggregate plus the node's own feature scaled
    by the node's factor, plus the bias. -/
theorem pay_apply (d : FVec Ideal S5000x1 .f32) (b : FVec Ideal S1x1 .f32) (a h : FVec Ideal S5000x1 .f32)
    (p : Fin 5000) (q : Fin 1) :
    k5_pay1 (F := Ideal) d b a h (ix2 p q)
      = (a (ix2 p q) + h (ix2 p q) * d (ix2 p q)) + b (ix2 (0 : Fin 1) q) := by
  unfold k5_pay1
  simp only [shapeCast_self]
  rw [addf_apply, addf_apply, mulf_apply, broadcastTo_1b_ab_apply]

variable (V : (c : Dev nD) → (b : Ref sig .tc) → Buf (Elt Ideal) ((c : Thread nD τ).loc b))

/-- The layer's result as one array: the combination of the four region-entry arrays. -/
abbrev result (c : Dev nD) : FVec Ideal ⟨2, ![200000, 1]⟩ .f32 :=
  Cert.Gcn.comb (V c main_v55) (V c main_v49) (Cert.Gcn.colVec (V c main_v13)) (Cert.Gcn.rowVec (V c main_v56))

theorem zero_offsets : (![0, 0] : Fin 2 → Nat) = fun _ => 0 := funext fun a => by fin_cases a <;> rfl

/-- The block indices over the grid: the three columns and the output move one row block a point, the bias stays. -/
theorem block_index : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The combination at an array index `i`, from the four arrays each read where its block's rectangle puts the
    entry: the two feature columns at `i`, the factor column at `i`'s row, the bias at `i`'s channel. -/
theorem entry_eq (A H D : FVec Ideal S200000x1 .f32) (B : FVec Ideal S1x1 .f32)
    (i i0 i1 k : S200000x1.Idx) (l : S1x1.Idx) (h0 : i0 = i) (h1 : i1 = i)
    (h2 : k = ix2 ⟨(i 0).val, idx2_lt0 i⟩ (0 : Fin 1)) (h3 : l = ix2 (0 : Fin 1) ⟨(i 1).val, idx2_lt1 i⟩) :
    (A i0 + H i1 * D k) + B l
      = Cert.Gcn.comb A H (Cert.Gcn.colVec D) (Cert.Gcn.rowVec B) i := by
  subst h0 h1 h2 h3; rfl

/-- What point `t` writes back is block `t` of `result`. -/
theorem flushed_eq (c : Dev nD) (t : Fin cfg5.N) :
    (dat5 (F := Ideal) V c).flushed 4 t = ((cfg5.win 4).blk t).view.read (Elt Ideal) (result V c) := by
  show (cfg5.win 4).cut (grid5.coords t) ((dat5 V c).after 4 t) = _
  rw [after5_4]
  unfold out5_4
  rw [View.canon_unit_zero zero_offsets]
  simp only [View.ld_unit_zero (S := S5000x1) zero_offsets, View.ld_unit_zero (S := S1x1) zero_offsets]
  obtain ⟨e00, e01, e10, e11, e20, e21, e30, e31, e40, e41⟩ := block_index t
  funext j
  obtain ⟨p, q, rfl⟩ : ∃ (p : Fin 5000) (q : Fin 1), j = ix2 p q := ⟨j 0, j 1, eq_ix2 j⟩
  refine (pay_apply _ _ _ _ p q).trans ?_
  have hp : p.val < 5000 := p.isLt
  have hq : q.val < 1 := q.isLt
  -- the two feature columns' blocks lie where the output's block lies
  have h0 : ((cfg5.win 0).blk t).view.emb (ix2 p q) = ((cfg5.win 4).blk t).view.emb (ix2 p q) := by
    funext a; apply Fin.ext
    match a with
    | ⟨0, _⟩ => show win5_0.index t (0 : Fin 2) * 5000 + 1 * p.val = win5_4.index t (0 : Fin 2) * 5000 + 1 * p.val; omega
    | ⟨1, _⟩ => show win5_0.index t (1 : Fin 2) * 1 + 1 * q.val = win5_4.index t (1 : Fin 2) * 1 + 1 * q.val; omega
  have h1 : ((cfg5.win 1).blk t).view.emb (ix2 p q) = ((cfg5.win 4).blk t).view.emb (ix2 p q) := by
    funext a; apply Fin.ext
    match a with
    | ⟨0, _⟩ => show win5_1.index t (0 : Fin 2) * 5000 + 1 * p.val = win5_4.index t (0 : Fin 2) * 5000 + 1 * p.val; omega
    | ⟨1, _⟩ => show win5_1.index t (1 : Fin 2) * 1 + 1 * q.val = win5_4.index t (1 : Fin 2) * 1 + 1 * q.val; omega
  -- the factor column's block holds the same rows
  have h2 : ((cfg5.win 2).blk t).view.emb (ix2 p q)
      = ix2 ⟨((((cfg5.win 4).blk t).view.emb (ix2 p q)) 0).val, idx2_lt0 (n0 := 200000) (n1 := 1) (((cfg5.win 4).blk t).view.emb (ix2 p q))⟩ (0 : Fin 1) := by
    funext a; apply Fin.ext
    match a with
    | ⟨0, _⟩ => show win5_2.index t (0 : Fin 2) * 5000 + 1 * p.val = win5_4.index t (0 : Fin 2) * 5000 + 1 * p.val; omega
    | ⟨1, _⟩ => show win5_2.index t (1 : Fin 2) * 1 + 1 * q.val = 0; omega
  -- the bias is whole at every point
  have h3 : ((cfg5.win 3).blk t).view.emb (ix2 (0 : Fin 1) q)
      = ix2 (0 : Fin 1) ⟨((((cfg5.win 4).blk t).view.emb (ix2 p q)) 1).val, idx2_lt1 (n0 := 200000) (n1 := 1) (((cfg5.win 4).blk t).view.emb (ix2 p q))⟩ := by
    funext a; apply Fin.ext
    match a with
    | ⟨0, _⟩ => show win5_3.index t (0 : Fin 2) * 1 + 1 * 0 = 0; omega
    | ⟨1, _⟩ => show win5_3.index t (1 : Fin 2) * 1 + 1 * q.val = win5_4.index t (1 : Fin 2) * 1 + 1 * q.val; omega
  exact entry_eq (V c main_v55) (V c main_v49) (V c main_v13) (V c main_v56) (((cfg5.win 4).blk t).view.emb (ix2 p q))
    (((cfg5.win 0).blk t).view.emb (ix2 p q)) (((cfg5.win 1).blk t).view.emb (ix2 p q))
    (((cfg5.win 2).blk t).view.emb (ix2 p q)) (((cfg5.win 3).blk t).view.emb (ix2 (0 : Fin 1) q)) h0 h1 h2 h3

/-- An index of the array is in point `t`'s block iff each coordinate is in the block's range on its axis. -/
theorem mem_blk (t : Fin cfg5.N) (i : S200000x1.Idx) :
    i ∈ ((cfg5.win 4).blk t).view.set
      ↔ ∀ a : Fin 2, win5_4.index t a * S5000x1.size a ≤ (i a).val ∧ (i a).val < win5_4.index t a * S5000x1.size a + S5000x1.size a := by
  show i ∈ ((View.whole main_v57).slice (win5_4.rect t)).set ↔ _
  rw [View.set_slice_whole, Rect.mem_set_unit]
  exact Iff.rfl

/-- The forty row blocks fill the array: row `r` lies in the block of point `r / 5000`. -/
theorem cover (i : S200000x1.Idx) :
    ∃ t : Fin cfg5.N, (cfg5.win 4).flush t = true ∧ i ∈ ((cfg5.win 4).blk t).view.set := by
  have hi0 : (i 0).val < 200000 := (i 0).isLt
  have hi1 : (i 1).val < 1 := (i 1).isLt
  have hN : (i 0).val / 5000 < cfg5.N := by show _ < 40; omega
  obtain ⟨-, -, -, -, -, -, -, -, e40, e41⟩ := block_index ⟨(i 0).val / 5000, hN⟩
  have e40' : win5_4.index ⟨(i 0).val / 5000, hN⟩ (0 : Fin 2) = (i 0).val / 5000 := e40
  refine ⟨⟨(i 0).val / 5000, hN⟩, flush5_4 _, ?_⟩
  rw [mem_blk]
  intro a
  match a with
  | ⟨0, _⟩ =>
    show win5_4.index ⟨(i 0).val / 5000, hN⟩ (0 : Fin 2) * 5000 ≤ (i 0).val
      ∧ (i 0).val < win5_4.index ⟨(i 0).val / 5000, hN⟩ (0 : Fin 2) * 5000 + 5000
    omega
  | ⟨1, _⟩ =>
    show win5_4.index ⟨(i 0).val / 5000, hN⟩ (1 : Fin 2) * 1 ≤ (i 1).val
      ∧ (i 1).val < win5_4.index ⟨(i 0).val / 5000, hN⟩ (1 : Fin 2) * 1 + 1
    omega

/-- The output array after the region: the combination of the region-entry arrays. -/
theorem final (c : Dev nD) : (dat5 (F := Ideal) V c).arrAt 4 cfg5.N
    = Cert.Gcn.comb (V c main_v55) (V c main_v49) (Cert.Gcn.colVec (V c main_v13)) (Cert.Gcn.rowVec (V c main_v56)) :=
  (dat5 V c).arrAt_eq_of_cover 4 (result V c) (fun t _ => flushed_eq V c t) cover

end Cert.KernelIdeal.Comb5

end
-- ==== Proof.Bound.lean ====
/-
  What every segment boundary of the kernel program's run holds, read against the reference's own stages.

  The program is a chain: host operations on the edge list (source ids, destination ids, degrees, the per-edge
  normalisation, the per-node factor), then for each of three layers a region that forms the dense product of the
  layer's input with its weights, host operations that gather each edge's source row of that product, scale it and
  add it into the destination row, and a region that combines the sum with the node's own row, the node's factor and
  the bias. Each boundary's buffer contents are a fold of these steps over the launch memory.

  The argument walks that fold once, keeping two kinds of facts. The quantities that depend on the edge list alone
  (and the arguments still to be read) are written once and never again: every boundary still holds them. Each
  layer's three new arrays — the product, the aggregated messages, the layer's output — are, at the boundary where
  they appear, the reference's stages of the same meaning: the product because the region's output is the dense
  product of its inputs; the aggregation because, with every source id inside the node axis, the range-tested take is
  the plain gather and the scaling product commutes; the output because the region computes the affine combination
  (and the clamp at zero) index by index. The last region's output is the program's result.
-/
import proofs.«427416_j27908697489547_1_alg».proof.Proof.Gen.KernelIdeal.Frame
import proofs.«427416_j27908697489547_1_alg».proof.Proof.Gen.ReferenceIdeal.Read
import proofs.«427416_j27908697489547_1_alg».proof.Proof.Spec
import proofs.«427416_j27908697489547_1_alg».proof.Proof.RefLayers
import proofs.«427416_j27908697489547_1_alg».proof.Proof.Take
import proofs.«427416_j27908697489547_1_alg».proof.Proof.LibColumns
import proofs.«427416_j27908697489547_1_alg».proof.Proof.Lin0
import proofs.«427416_j27908697489547_1_alg».proof.Proof.Lin2
import proofs.«427416_j27908697489547_1_alg».proof.Proof.Lin4
import proofs.«427416_j27908697489547_1_alg».proof.Proof.Comb1
import proofs.«427416_j27908697489547_1_alg».proof.Proof.Comb3
import proofs.«427416_j27908697489547_1_alg».proof.Proof.Comb5

set_option maxRecDepth 16384

noncomputable section

namespace Cert.KernelIdeal.Bound

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-! ## Small laws -/

/-- The product of two arrays of extended reals, entry by entry, does not depend on the order of the factors. -/
theorem mulf_comm' {s : Shape} (a b : FVec Ideal s .f32) : mulf a b = mulf b a :=
  funext fun i => mul_comm (a i) (b i)

/-- A vector cast to a one-column matrix and read back as a vector is the vector. -/
theorem colVec_shapeCast {N : Nat} (v : FVec Ideal ⟨1, ![N]⟩ .f32) (h : (⟨1, ![N]⟩ : Shape).ShapeCasts ⟨2, ![N, 1]⟩) :
    Cert.Gcn.colVec (shapeCast ⟨2, ![N, 1]⟩ v h) = v := by
  funext p
  unfold Cert.Gcn.colVec
  rw [Cert.Columns.shapeCast_a_a1_apply v h ⟨(p 0).val, (p 0).isLt⟩ (0 : Fin 1)]
  exact congrArg v (eq_ix1 p).symm

/-- A vector cast to a one-row matrix and read back as a vector is the vector: the cast keeps row-major order, and
    entry `(0, q)` of the row is entry `q` of the vector. -/
theorem rowVec_shapeCast {C : Nat} (v : FVec Ideal ⟨1, ![C]⟩ .f32) (h : (⟨1, ![C]⟩ : Shape).ShapeCasts ⟨2, ![1, C]⟩) :
    Cert.Gcn.rowVec (shapeCast ⟨2, ![1, C]⟩ v h) = v := by
  funext q
  unfold Cert.Gcn.rowVec
  refine (shapeCast_apply v h _ (ix1 ⟨(q 0).val, (q 0).isLt⟩) ?_).trans (congrArg v (eq_ix1 q).symm)
  rw [Shape.rowMajor_val_two, Shape.rowMajor_val_one]
  show (q 0).val = 0 * C + (q 0).val
  omega

/-- A value carried to an equal type and back is the value. -/
theorem cast_cast_cancel {α β : Type} (h : α = β) (h' : β = α) (v : α) : cast h' (cast h v) = v := by
  subst h; rfl

/-! The outlined gather's operations read and write their buffers through a transport along "the buffer's type is the
value's type"; at each literal buffer that transport is the identity. -/

theorem leaf_src (x : (main_v1 : Ref sig .tc).ty.Contents (Elt Ideal)) :
    (TRef.of main_v1 : TRef sig ⟨S6400000, .i32⟩).ofBuf x = x := rfl
theorem leaf_hw1 (x : (main_v29 : Ref sig .tc).ty.Contents (Elt Ideal)) :
    (TRef.of main_v29 : TRef sig ⟨S200000x16, .f32⟩).ofBuf x = x := rfl
theorem leaf_hw2 (x : (main_v39 : Ref sig .tc).ty.Contents (Elt Ideal)) :
    (TRef.of main_v39 : TRef sig ⟨S200000x16, .f32⟩).ofBuf x = x := rfl
theorem leaf_hw3 (x : (main_v49 : Ref sig .tc).ty.Contents (Elt Ideal)) :
    (TRef.of main_v49 : TRef sig ⟨S200000x1, .f32⟩).ofBuf x = x := rfl
theorem outer1 (x : (⟨S6400000x16, .f32⟩ : BufTy).Contents (Elt Ideal)) :
    (TRef.of main_v30 : TRef sig ⟨S6400000x16, .f32⟩).toBuf x = x := rfl
theorem outer2 (x : (⟨S6400000x16, .f32⟩ : BufTy).Contents (Elt Ideal)) :
    (TRef.of main_v40 : TRef sig ⟨S6400000x16, .f32⟩).toBuf x = x := rfl
theorem outer3 (x : (⟨S6400000x1, .f32⟩ : BufTy).Contents (Elt Ideal)) :
    (TRef.of main_v50 : TRef sig ⟨S6400000x1, .f32⟩).toBuf x = x := rfl

/-! ## What every later stretch still finds: the edge lists, the normalisations and the arguments

The first host stretch computes, from the edge list alone, the source and destination ids, the per-edge normalisation
and the per-node factor (as a column). No later operation and no region writes these buffers or an argument, so every
segment boundary still holds them. They are stated against the reference's own stages of the same names of the
mathematics: the reference computes them by the same host operations. -/

/-- The buffers that persist, at contents `W`: source ids, destination ids, the per-edge normalisation, the per-node
    factor as a column, and the five arguments read after the first region. -/
structure Pers (c : Dev nD) (W : Valuation τ sig (Elt Ideal)) : Prop where
  src : W (Proc.devRef .tc main_v1) = Cert.ReferenceIdeal.Read.val_main_v1 (F := Ideal) (m ((c : Thread nD τ).loc main_arg1))
  dst : W (Proc.devRef .tc main_v3) = Cert.ReferenceIdeal.Read.val_main_v3 (F := Ideal) (m ((c : Thread nD τ).loc main_arg1))
  nrm : W (Proc.devRef .tc main_v28) = Cert.ReferenceIdeal.Read.val_main_v27 (F := Ideal) (m ((c : Thread nD τ).loc main_arg1))
  fac : W (Proc.devRef .tc main_v13)
      = shapeCast S200000x1 (Cert.ReferenceIdeal.Read.val_main_v41 (F := Ideal) (m ((c : Thread nD τ).loc main_arg1))) shapeCasts_S200000_S200000x1
  a3 : W (Proc.devRef .tc main_arg3) = (m ((c : Thread nD τ).loc main_arg3))
  a4 : W (Proc.devRef .tc main_arg4) = (m ((c : Thread nD τ).loc main_arg4))
  a5 : W (Proc.devRef .tc main_arg5) = (m ((c : Thread nD τ).loc main_arg5))
  a6 : W (Proc.devRef .tc main_arg6) = (m ((c : Thread nD τ).loc main_arg6))
  a7 : W (Proc.devRef .tc main_arg7) = (m ((c : Thread nD τ).loc main_arg7))

/-- A region's exit contents agree with its entry contents at every persistent buffer: off the region's own arrays
    nothing changes, and where a persistent buffer is one of the region's INPUT arrays the pipeline leaves it as entered. -/
theorem Pers.of_agree {c : Dev nD} {W W' : Valuation τ sig (Elt Ideal)}
    (h : ∀ b : Ref sig .tc, (b = main_v1 ∨ b = main_v3 ∨ b = main_v28 ∨ b = main_v13 ∨ b = main_arg3 ∨ b = main_arg4
      ∨ b = main_arg5 ∨ b = main_arg6 ∨ b = main_arg7) → W' (Proc.devRef .tc b) = W (Proc.devRef .tc b))
    (p : Pers m c W) : Pers m c W' where
  src := (h _ (by simp)).trans p.src
  dst := (h _ (by simp)).trans p.dst
  nrm := (h _ (by simp)).trans p.nrm
  fac := (h _ (by simp)).trans p.fac
  a3 := (h _ (by simp)).trans p.a3
  a4 := (h _ (by simp)).trans p.a4
  a5 := (h _ (by simp)).trans p.a5
  a6 := (h _ (by simp)).trans p.a6
  a7 := (h _ (by simp)).trans p.a7

/-! ## The first host stretch -/

set_option maxHeartbeats 1000000 in
theorem pers1 (c : Dev nD) : Pers m c (W1 m ρ c) where
  src := by show StableHlo.after hostOps0 (W0 m ρ c) (Proc.devRef .tc main_v1) = _; after_results_simp; rfl
  dst := by show StableHlo.after hostOps0 (W0 m ρ c) (Proc.devRef .tc main_v3) = _; after_results_simp; rfl
  nrm := by show StableHlo.after hostOps0 (W0 m ρ c) (Proc.devRef .tc main_v28) = _; after_results_simp; rfl
  fac := by show StableHlo.after hostOps0 (W0 m ρ c) (Proc.devRef .tc main_v13) = _; after_results_simp; rfl
  a3 := by show StableHlo.after hostOps0 (W0 m ρ c) (Proc.devRef .tc main_arg3) = _; after_results_simp
  a4 := by show StableHlo.after hostOps0 (W0 m ρ c) (Proc.devRef .tc main_arg4) = _; after_results_simp
  a5 := by show StableHlo.after hostOps0 (W0 m ρ c) (Proc.devRef .tc main_arg5) = _; after_results_simp
  a6 := by show StableHlo.after hostOps0 (W0 m ρ c) (Proc.devRef .tc main_arg6) = _; after_results_simp
  a7 := by show StableHlo.after hostOps0 (W0 m ρ c) (Proc.devRef .tc main_arg7) = _; after_results_simp

theorem W1_arg0 (c : Dev nD) : W1 m ρ c (Proc.devRef .tc main_arg0) = (m ((c : Thread nD τ).loc main_arg0)) := by
  show StableHlo.after hostOps0 (W0 m ρ c) (Proc.devRef .tc main_arg0) = _; after_results_simp
theorem W1_arg2 (c : Dev nD) : W1 m ρ c (Proc.devRef .tc main_arg2) = (m ((c : Thread nD τ).loc main_arg2)) := by
  show StableHlo.after hostOps0 (W0 m ρ c) (Proc.devRef .tc main_arg2) = _; after_results_simp

/-! ## Layer 1 -/

/-- Region 0 leaves the first layer's transformed features: the dense product of the node features and the first
    weight matrix, which is the reference's. -/
theorem W2_hw (c : Dev nD) : W2 m ρ c (Proc.devRef .tc main_v29)
    = Cert.ReferenceIdeal.Read.val_main_v12 (F := Ideal) (m ((c : Thread nD τ).loc main_arg0)) (m ((c : Thread nD τ).loc main_arg2)) := by
  refine (W2_arr m ρ c 2).trans ?_
  rw [Cert.KernelIdeal.Lin0.final (V1 m ρ) c, Cert.ReferenceIdeal.Layers.hw1_eq]
  show Cert.Gcn.lin (W1 m ρ c (Proc.devRef .tc main_arg0)) (W1 m ρ c (Proc.devRef .tc main_arg2)) = _
  rw [W1_arg0, W1_arg2]

theorem pers2 (c : Dev nD) : Pers m c (W2 m ρ c) :=
  (pers1 m ρ c).of_agree m fun b hb => W2_of_ne m ρ c b (by
    rcases hb with rfl | rfl | rfl | rfl | rfl | rfl | rfl | rfl | rfl <;> decide)

/-- The precondition's index-range conjunct at the source ids: every one is at least 0 and below the 200000 nodes. -/
def SrcOk (c : Dev nD) : Prop := ∀ e : S6400000.Idx,
  IntOp.cmpi .sge (Cert.ReferenceIdeal.Read.val_main_v1 (F := Ideal) (m ((c : Thread nD τ).loc main_arg1)) e) 0#32 = 1#1
    ∧ IntOp.cmpi .slt (Cert.ReferenceIdeal.Read.val_main_v1 (F := Ideal) (m ((c : Thread nD τ).loc main_arg1)) e) 200000#32 = 1#1

/-! ## The aggregation of neighbour messages, as the kernel program's host operations spell it

For every edge the transformed features of its source node are taken (a negative id wrapped, an id out of range
answered by a filler word), scaled by the edge's normalisation, and added into the row of its destination node. -/

/-- Sixteen channels. -/
def aggK16 (hw : FVec Ideal S200000x16 .f32) (src dst : IVec S6400000 32) (nrm : FVec Ideal S6400000 .f32) :
    FVec Ideal S200000x16 .f32 :=
  Host.scatterAdd scatter_S200000x16_S6400000x1_S6400000x16_1_0_0_1
    (broadcastInDim S200000x16 ![] bcast_S_S200000x16 (constant S_ .f32 0x00000000#32))
    (broadcastInDim S6400000x1 ![0] bcast_S6400000_S6400000x1_0 dst)
    (mulf
      (select (broadcastInDim S6400000x16 ![0] bcast_S6400000_S6400000x16_0 (Take.inside (Take.wrapped src)))
        (Host.gather gather_S200000x16_S6400000x1_S6400000x16_1_0_n_n_0_1_116 hw (Take.wrapped src))
        (broadcastInDim S6400000x16 ![] bcast_S_S6400000x16 (constant S_ .f32 0x7FC00000#32)))
      (broadcastInDim S6400000x16 ![0, 1] bcast_S6400000x1_S6400000x16_0_1
        (broadcastInDim S6400000x1 ![0] bcast_S6400000_S6400000x1_0 nrm)))

/-- One channel. -/
def aggK1 (hw : FVec Ideal S200000x1 .f32) (src dst : IVec S6400000 32) (nrm : FVec Ideal S6400000 .f32) :
    FVec Ideal S200000x1 .f32 :=
  Host.scatterAdd scatter_S200000x1_S6400000x1_S6400000x1_1_0_0_1
    (broadcastInDim S200000x1 ![] bcast_S_S200000x1 (constant S_ .f32 0x00000000#32))
    (broadcastInDim S6400000x1 ![0] bcast_S6400000_S6400000x1_0 dst)
    (mulf
      (select (broadcastInDim S6400000x1 ![0] bcast_S6400000_S6400000x1_0 (Take.inside (Take.wrapped src)))
        (Host.gather gather_S200000x1_S6400000x1_S6400000x1_1_0_n_n_0_1_11 hw (Take.wrapped src))
        (broadcastInDim S6400000x1 ![] bcast_S_S6400000x1 (constant S_ .f32 0x7FC00000#32)))
      (broadcastInDim S6400000x1 ![0] bcast_S6400000_S6400000x1_0 nrm))

/-- With every source id in range the taken rows are the gathered rows, and the product of a message with its
    normalisation commutes: the kernel program's first aggregation is the reference's. -/
theorem agg1_eq (c : Dev nD) (hs : SrcOk m c) :
    aggK16 (Cert.ReferenceIdeal.Read.val_main_v12 (F := Ideal) (m ((c : Thread nD τ).loc main_arg0)) (m ((c : Thread nD τ).loc main_arg2))) (Cert.ReferenceIdeal.Read.val_main_v1 (F := Ideal) (m ((c : Thread nD τ).loc main_arg1)))
        (Cert.ReferenceIdeal.Read.val_main_v3 (F := Ideal) (m ((c : Thread nD τ).loc main_arg1))) (Cert.ReferenceIdeal.Read.val_main_v27 (F := Ideal) (m ((c : Thread nD τ).loc main_arg1)))
      = Cert.ReferenceIdeal.Read.val_main_v40 (F := Ideal) (m ((c : Thread nD τ).loc main_arg0)) (m ((c : Thread nD τ).loc main_arg1)) (m ((c : Thread nD τ).loc main_arg2)) := by
  unfold aggK16
  rw [Take.take16 _ _ hs, mulf_comm']
  rfl

/-- The same for the second layer (the reference computes the normalisation anew: the same operations). -/
theorem agg2_eq (c : Dev nD) (hs : SrcOk m c) :
    aggK16 (Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (Cert.ReferenceIdeal.Read.val_main_v1 (F := Ideal) (m ((c : Thread nD τ).loc main_arg1)))
        (Cert.ReferenceIdeal.Read.val_main_v3 (F := Ideal) (m ((c : Thread nD τ).loc main_arg1))) (Cert.ReferenceIdeal.Read.val_main_v27 (F := Ideal) (m ((c : Thread nD τ).loc main_arg1)))
      = Cert.ReferenceIdeal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  unfold aggK16
  rw [Take.take16 _ _ hs, mulf_comm']
  rfl

/-- The same for the last layer, one channel. -/
theorem agg3_eq (c : Dev nD) (hs : SrcOk m c) :
    aggK1 (Cert.ReferenceIdeal.Read.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (Cert.ReferenceIdeal.Read.val_main_v1 (F := Ideal) (m ((c : Thread nD τ).loc main_arg1)))
        (Cert.ReferenceIdeal.Read.val_main_v3 (F := Ideal) (m ((c : Thread nD τ).loc main_arg1))) (Cert.ReferenceIdeal.Read.val_main_v27 (F := Ideal) (m ((c : Thread nD τ).loc main_arg1)))
      = Cert.ReferenceIdeal.Read.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold aggK1
  rw [Take.take1 _ _ hs, mulf_comm']
  rfl

/-- The reference squares the inverse square root of the degree anew in every layer: one value. -/
theorem fac2 (x1 : IVec Cert.ReferenceIdeal.S2x6400000 32) :
    Cert.ReferenceIdeal.Read.val_main_v79 (F := Ideal) x1 = Cert.ReferenceIdeal.Read.val_main_v41 (F := Ideal) x1 := rfl
theorem fac3 (x1 : IVec Cert.ReferenceIdeal.S2x6400000 32) :
    Cert.ReferenceIdeal.Read.val_main_v116 (F := Ideal) x1 = Cert.ReferenceIdeal.Read.val_main_v41 (F := Ideal) x1 := rfl

/-! ### Layer 1: the host operations between region 0 and region 1 -/

set_option maxHeartbeats 1000000 in
theorem pers4 (c : Dev nD) : Pers m c (W4 m ρ c) where
  src := by show StableHlo.after hostOps1_1 (StableHlo.after hostOps1 (W2 m ρ c)) (Proc.devRef .tc main_v1) = _; after_results_simp; exact (pers2 m ρ c).src
  dst := by show StableHlo.after hostOps1_1 (StableHlo.after hostOps1 (W2 m ρ c)) (Proc.devRef .tc main_v3) = _; after_results_simp; exact (pers2 m ρ c).dst
  nrm := by show StableHlo.after hostOps1_1 (StableHlo.after hostOps1 (W2 m ρ c)) (Proc.devRef .tc main_v28) = _; after_results_simp; exact (pers2 m ρ c).nrm
  fac := by show StableHlo.after hostOps1_1 (StableHlo.after hostOps1 (W2 m ρ c)) (Proc.devRef .tc main_v13) = _; after_results_simp; exact (pers2 m ρ c).fac
  a3 := by show StableHlo.after hostOps1_1 (StableHlo.after hostOps1 (W2 m ρ c)) (Proc.devRef .tc main_arg3) = _; after_results_simp; exact (pers2 m ρ c).a3
  a4 := by show StableHlo.after hostOps1_1 (StableHlo.after hostOps1 (W2 m ρ c)) (Proc.devRef .tc main_arg4) = _; after_results_simp; exact (pers2 m ρ c).a4
  a5 := by show StableHlo.after hostOps1_1 (StableHlo.after hostOps1 (W2 m ρ c)) (Proc.devRef .tc main_arg5) = _; after_results_simp; exact (pers2 m ρ c).a5
  a6 := by show StableHlo.after hostOps1_1 (StableHlo.after hostOps1 (W2 m ρ c)) (Proc.devRef .tc main_arg6) = _; after_results_simp; exact (pers2 m ρ c).a6
  a7 := by show StableHlo.after hostOps1_1 (StableHlo.after hostOps1 (W2 m ρ c)) (Proc.devRef .tc main_arg7) = _; after_results_simp; exact (pers2 m ρ c).a7

theorem W4_hw (c : Dev nD) : W4 m ρ c (Proc.devRef .tc main_v29)
    = Cert.ReferenceIdeal.Read.val_main_v12 (F := Ideal) (m ((c : Thread nD τ).loc main_arg0)) (m ((c : Thread nD τ).loc main_arg2)) := by
  show StableHlo.after hostOps1_1 (StableHlo.after hostOps1 (W2 m ρ c)) (Proc.devRef .tc main_v29) = _
  after_results_simp
  exact W2_hw m ρ c

set_option maxHeartbeats 1000000 in
theorem W4_agg_raw (c : Dev nD) : W4 m ρ c (Proc.devRef .tc main_v36)
    = aggK16 (W2 m ρ c (Proc.devRef .tc main_v29)) (W2 m ρ c (Proc.devRef .tc main_v1))
        (W2 m ρ c (Proc.devRef .tc main_v3)) (W2 m ρ c (Proc.devRef .tc main_v28)) := by
  show StableHlo.after hostOps1_1 (StableHlo.after hostOps1 (W2 m ρ c)) (Proc.devRef .tc main_v36) = _
  after_results_simp
  rw [outer1, leaf_hw1, leaf_src]
  simp only [TRef.ofBuf, TRef.toBuf, cast_cast_cancel]
  generalize W2 m ρ c (Proc.devRef .tc main_v29) = hw
  generalize W2 m ρ c (Proc.devRef .tc main_v1) = s
  generalize W2 m ρ c (Proc.devRef .tc main_v3) = d
  generalize W2 m ρ c (Proc.devRef .tc main_v28) = n
  rfl

theorem W4_agg (c : Dev nD) (hs : SrcOk m c) : W4 m ρ c (Proc.devRef .tc main_v36)
    = Cert.ReferenceIdeal.Read.val_main_v40 (F := Ideal) (m ((c : Thread nD τ).loc main_arg0)) (m ((c : Thread nD τ).loc main_arg1)) (m ((c : Thread nD τ).loc main_arg2)) := by
  rw [W4_agg_raw, W2_hw, (pers2 m ρ c).src, (pers2 m ρ c).dst, (pers2 m ρ c).nrm]
  exact agg1_eq m c hs

theorem W4_bias (c : Dev nD) : W4 m ρ c (Proc.devRef .tc main_v37) = shapeCast S1x16 (m ((c : Thread nD τ).loc main_arg3)) shapeCasts_S16_S1x16 := by
  show StableHlo.after hostOps1_1 (StableHlo.after hostOps1 (W2 m ρ c)) (Proc.devRef .tc main_v37) = _
  after_results_simp
  rw [(pers2 m ρ c).a3]
  rfl

/-- Region 1 leaves the first hidden layer: the reference's. -/
theorem W5_h (c : Dev nD) (hs : SrcOk m c) : W5 m ρ c (Proc.devRef .tc main_v38)
    = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) := by
  refine (W5_arr m ρ c 4).trans ?_
  rw [Cert.KernelIdeal.Comb1.final (V4 m ρ) c, Cert.ReferenceIdeal.Layers.h1_eq]
  show Cert.Gcn.relu (Cert.Gcn.comb (W4 m ρ c (Proc.devRef .tc main_v36)) (W4 m ρ c (Proc.devRef .tc main_v29))
    (Cert.Gcn.colVec (W4 m ρ c (Proc.devRef .tc main_v13))) (Cert.Gcn.rowVec (W4 m ρ c (Proc.devRef .tc main_v37)))) = _
  rw [W4_agg m ρ c hs, W4_hw m ρ c, (pers4 m ρ c).fac, W4_bias m ρ c, colVec_shapeCast, rowVec_shapeCast]

theorem pers5 (c : Dev nD) : Pers m c (W5 m ρ c) :=
  (pers4 m ρ c).of_agree m fun b hb => by
    rcases hb with rfl | rfl | rfl | rfl | rfl | rfl | rfl | rfl | rfl
    all_goals first
      | exact W5_of_ne m ρ c _ (by decide)
      | exact (W5_arr m ρ c 2).trans (((dat1 (V4 m ρ) c).arrAt_in 2 rfl _).trans (A_eq1 (V4 m ρ) c 2))

/-! ### Layer 2 -/

/-- Region 2 leaves the second layer's transformed features. -/
theorem W6_hw (c : Dev nD) (hs : SrcOk m c) : W6 m ρ c (Proc.devRef .tc main_v39)
    = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 2).trans ?_
  rw [Cert.KernelIdeal.Lin2.final (V5 m ρ) c, Cert.ReferenceIdeal.Layers.hw2_eq]
  show Cert.Gcn.lin (W5 m ρ c (Proc.devRef .tc main_v38)) (W5 m ρ c (Proc.devRef .tc main_arg4)) = _
  rw [W5_h m ρ c hs, (pers5 m ρ c).a4]

theorem pers6 (c : Dev nD) : Pers m c (W6 m ρ c) :=
  (pers5 m ρ c).of_agree m fun b hb => by
    rcases hb with rfl | rfl | rfl | rfl | rfl | rfl | rfl | rfl | rfl
    all_goals first
      | exact W6_of_ne m ρ c _ (by decide)
      | exact (W6_arr m ρ c 1).trans (((dat2 (V5 m ρ) c).arrAt_in 1 rfl _).trans (A_eq2 (V5 m ρ) c 1))

set_option maxHeartbeats 1000000 in
theorem pers8 (c : Dev nD) : Pers m c (W8 m ρ c) where
  src := by show StableHlo.after hostOps3_1 (StableHlo.after hostOps3 (W6 m ρ c)) (Proc.devRef .tc main_v1) = _; after_results_simp; exact (pers6 m ρ c).src
  dst := by show StableHlo.after hostOps3_1 (StableHlo.after hostOps3 (W6 m ρ c)) (Proc.devRef .tc main_v3) = _; after_results_simp; exact (pers6 m ρ c).dst
  nrm := by show StableHlo.after hostOps3_1 (StableHlo.after hostOps3 (W6 m ρ c)) (Proc.devRef .tc main_v28) = _; after_results_simp; exact (pers6 m ρ c).nrm
  fac := by show StableHlo.after hostOps3_1 (StableHlo.after hostOps3 (W6 m ρ c)) (Proc.devRef .tc main_v13) = _; after_results_simp; exact (pers6 m ρ c).fac
  a3 := by show StableHlo.after hostOps3_1 (StableHlo.after hostOps3 (W6 m ρ c)) (Proc.devRef .tc main_arg3) = _; after_results_simp; exact (pers6 m ρ c).a3
  a4 := by show StableHlo.after hostOps3_1 (StableHlo.after hostOps3 (W6 m ρ c)) (Proc.devRef .tc main_arg4) = _; after_results_simp; exact (pers6 m ρ c).a4
  a5 := by show StableHlo.after hostOps3_1 (StableHlo.after hostOps3 (W6 m ρ c)) (Proc.devRef .tc main_arg5) = _; after_results_simp; exact (pers6 m ρ c).a5
  a6 := by show StableHlo.after hostOps3_1 (StableHlo.after hostOps3 (W6 m ρ c)) (Proc.devRef .tc main_arg6) = _; after_results_simp; exact (pers6 m ρ c).a6
  a7 := by show StableHlo.after hostOps3_1 (StableHlo.after hostOps3 (W6 m ρ c)) (Proc.devRef .tc main_arg7) = _; after_results_simp; exact (pers6 m ρ c).a7

theorem W8_hw (c : Dev nD) (hs : SrcOk m c) : W8 m ρ c (Proc.devRef .tc main_v39)
    = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3_1 (StableHlo.after hostOps3 (W6 m ρ c)) (Proc.devRef .tc main_v39) = _
  after_results_simp
  exact W6_hw m ρ c hs

set_option maxHeartbeats 1000000 in
theorem W8_agg_raw (c : Dev nD) : W8 m ρ c (Proc.devRef .tc main_v46)
    = aggK16 (W6 m ρ c (Proc.devRef .tc main_v39)) (W6 m ρ c (Proc.devRef .tc main_v1))
        (W6 m ρ c (Proc.devRef .tc main_v3)) (W6 m ρ c (Proc.devRef .tc main_v28)) := by
  show StableHlo.after hostOps3_1 (StableHlo.after hostOps3 (W6 m ρ c)) (Proc.devRef .tc main_v46) = _
  after_results_simp
  rw [outer2, leaf_hw2, leaf_src]
  simp only [TRef.ofBuf, TRef.toBuf, cast_cast_cancel]
  generalize W6 m ρ c (Proc.devRef .tc main_v39) = hw
  generalize W6 m ρ c (Proc.devRef .tc main_v1) = s
  generalize W6 m ρ c (Proc.devRef .tc main_v3) = d
  generalize W6 m ρ c (Proc.devRef .tc main_v28) = n
  rfl

theorem W8_agg (c : Dev nD) (hs : SrcOk m c) : W8 m ρ c (Proc.devRef .tc main_v46)
    = Cert.ReferenceIdeal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [W8_agg_raw, W6_hw m ρ c hs, (pers6 m ρ c).src, (pers6 m ρ c).dst, (pers6 m ρ c).nrm]
  exact agg2_eq m c hs

theorem W8_bias (c : Dev nD) : W8 m ρ c (Proc.devRef .tc main_v47) = shapeCast S1x16 (m ((c : Thread nD τ).loc main_arg5)) shapeCasts_S16_S1x16 := by
  show StableHlo.after hostOps3_1 (StableHlo.after hostOps3 (W6 m ρ c)) (Proc.devRef .tc main_v47) = _
  after_results_simp
  rw [(pers6 m ρ c).a5]
  rfl

/-- Region 3 leaves the second hidden layer. -/
theorem W9_h (c : Dev nD) (hs : SrcOk m c) : W9 m ρ c (Proc.devRef .tc main_v48)
    = Cert.ReferenceIdeal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 4).trans ?_
  rw [Cert.KernelIdeal.Comb3.final (V8 m ρ) c, Cert.ReferenceIdeal.Layers.h2_eq, fac2]
  show Cert.Gcn.relu (Cert.Gcn.comb (W8 m ρ c (Proc.devRef .tc main_v46)) (W8 m ρ c (Proc.devRef .tc main_v39))
    (Cert.Gcn.colVec (W8 m ρ c (Proc.devRef .tc main_v13))) (Cert.Gcn.rowVec (W8 m ρ c (Proc.devRef .tc main_v47)))) = _
  rw [W8_agg m ρ c hs, W8_hw m ρ c hs, (pers8 m ρ c).fac, W8_bias m ρ c, colVec_shapeCast, rowVec_shapeCast]

theorem pers9 (c : Dev nD) : Pers m c (W9 m ρ c) :=
  (pers8 m ρ c).of_agree m fun b hb => by
    rcases hb with rfl | rfl | rfl | rfl | rfl | rfl | rfl | rfl | rfl
    all_goals first
      | exact W9_of_ne m ρ c _ (by decide)
      | exact (W9_arr m ρ c 2).trans (((dat3 (V8 m ρ) c).arrAt_in 2 rfl _).trans (A_eq3 (V8 m ρ) c 2))

/-! ### Layer 3 -/

/-- Region 4 leaves the last layer's transformed features (one channel). -/
theorem W10_hw (c : Dev nD) (hs : SrcOk m c) : W10 m ρ c (Proc.devRef .tc main_v49)
    = Cert.ReferenceIdeal.Read.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W10_arr m ρ c 2).trans ?_
  rw [Cert.KernelIdeal.Lin4.final (V9 m ρ) c, Cert.ReferenceIdeal.Layers.hw3_eq]
  show Cert.Gcn.lin (W9 m ρ c (Proc.devRef .tc main_v48)) (W9 m ρ c (Proc.devRef .tc main_arg6)) = _
  rw [W9_h m ρ c hs, (pers9 m ρ c).a6]

theorem pers10 (c : Dev nD) : Pers m c (W10 m ρ c) :=
  (pers9 m ρ c).of_agree m fun b hb => by
    rcases hb with rfl | rfl | rfl | rfl | rfl | rfl | rfl | rfl | rfl
    all_goals first
      | exact W10_of_ne m ρ c _ (by decide)
      | exact (W10_arr m ρ c 1).trans (((dat4 (V9 m ρ) c).arrAt_in 1 rfl _).trans (A_eq4 (V9 m ρ) c 1))

set_option maxHeartbeats 1000000 in
theorem pers12 (c : Dev nD) : Pers m c (W12 m ρ c) where
  src := by show StableHlo.after hostOps5_1 (StableHlo.after hostOps5 (W10 m ρ c)) (Proc.devRef .tc main_v1) = _; after_results_simp; exact (pers10 m ρ c).src
  dst := by show StableHlo.after hostOps5_1 (StableHlo.after hostOps5 (W10 m ρ c)) (Proc.devRef .tc main_v3) = _; after_results_simp; exact (pers10 m ρ c).dst
  nrm := by show StableHlo.after hostOps5_1 (StableHlo.after hostOps5 (W10 m ρ c)) (Proc.devRef .tc main_v28) = _; after_results_simp; exact (pers10 m ρ c).nrm
  fac := by show StableHlo.after hostOps5_1 (StableHlo.after hostOps5 (W10 m ρ c)) (Proc.devRef .tc main_v13) = _; after_results_simp; exact (pers10 m ρ c).fac
  a3 := by show StableHlo.after hostOps5_1 (StableHlo.after hostOps5 (W10 m ρ c)) (Proc.devRef .tc main_arg3) = _; after_results_simp; exact (pers10 m ρ c).a3
  a4 := by show StableHlo.after hostOps5_1 (StableHlo.after hostOps5 (W10 m ρ c)) (Proc.devRef .tc main_arg4) = _; after_results_simp; exact (pers10 m ρ c).a4
  a5 := by show StableHlo.after hostOps5_1 (StableHlo.after hostOps5 (W10 m ρ c)) (Proc.devRef .tc main_arg5) = _; after_results_simp; exact (pers10 m ρ c).a5
  a6 := by show StableHlo.after hostOps5_1 (StableHlo.after hostOps5 (W10 m ρ c)) (Proc.devRef .tc main_arg6) = _; after_results_simp; exact (pers10 m ρ c).a6
  a7 := by show StableHlo.after hostOps5_1 (StableHlo.after hostOps5 (W10 m ρ c)) (Proc.devRef .tc main_arg7) = _; after_results_simp; exact (pers10 m ρ c).a7

theorem W12_hw (c : Dev nD) (hs : SrcOk m c) : W12 m ρ c (Proc.devRef .tc main_v49)
    = Cert.ReferenceIdeal.Read.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps5_1 (StableHlo.after hostOps5 (W10 m ρ c)) (Proc.devRef .tc main_v49) = _
  after_results_simp
  exact W10_hw m ρ c hs

set_option maxHeartbeats 1000000 in
theorem W12_agg_raw (c : Dev nD) : W12 m ρ c (Proc.devRef .tc main_v55)
    = aggK1 (W10 m ρ c (Proc.devRef .tc main_v49)) (W10 m ρ c (Proc.devRef .tc main_v1))
        (W10 m ρ c (Proc.devRef .tc main_v3)) (W10 m ρ c (Proc.devRef .tc main_v28)) := by
  show StableHlo.after hostOps5_1 (StableHlo.after hostOps5 (W10 m ρ c)) (Proc.devRef .tc main_v55) = _
  after_results_simp
  rw [outer3, leaf_hw3, leaf_src]
  simp only [TRef.ofBuf, TRef.toBuf, cast_cast_cancel]
  generalize W10 m ρ c (Proc.devRef .tc main_v49) = hw
  generalize W10 m ρ c (Proc.devRef .tc main_v1) = s
  generalize W10 m ρ c (Proc.devRef .tc main_v3) = d
  generalize W10 m ρ c (Proc.devRef .tc main_v28) = n
  rfl

theorem W12_agg (c : Dev nD) (hs : SrcOk m c) : W12 m ρ c (Proc.devRef .tc main_v55)
    = Cert.ReferenceIdeal.Read.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [W12_agg_raw, W10_hw m ρ c hs, (pers10 m ρ c).src, (pers10 m ρ c).dst, (pers10 m ρ c).nrm]
  exact agg3_eq m c hs

theorem W12_bias (c : Dev nD) : W12 m ρ c (Proc.devRef .tc main_v56) = shapeCast S1x1 (m ((c : Thread nD τ).loc main_arg7)) shapeCasts_S1_S1x1 := by
  show StableHlo.after hostOps5_1 (StableHlo.after hostOps5 (W10 m ρ c)) (Proc.devRef .tc main_v56) = _
  after_results_simp
  rw [(pers10 m ρ c).a7]
  rfl

/-- THE RESULT: region 5 leaves, in the result array, the reference's result stage of the launch arguments. -/
theorem result_eq (c : Dev nD) (hs : SrcOk m c) : W13 m ρ c (Proc.devRef .tc main_v57)
    = Cert.ReferenceIdeal.Read.val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W13_arr m ρ c 4).trans ?_
  rw [Cert.KernelIdeal.Comb5.final (V12 m ρ) c, Cert.ReferenceIdeal.Layers.out_eq, fac3]
  show Cert.Gcn.comb (W12 m ρ c (Proc.devRef .tc main_v55)) (W12 m ρ c (Proc.devRef .tc main_v49))
    (Cert.Gcn.colVec (W12 m ρ c (Proc.devRef .tc main_v13))) (Cert.Gcn.rowVec (W12 m ρ c (Proc.devRef .tc main_v56))) = _
  rw [W12_agg m ρ c hs, W12_hw m ρ c hs, (pers12 m ρ c).fac, W12_bias m ρ c, colVec_shapeCast, rowVec_shapeCast]

end Cert.KernelIdeal.Bound
end
-- ==== Proof.lean ====
/-
  The kernel program — a three-layer graph convolution whose dense products and per-node combines run as six
  pipelined regions, with the gathers and scatter-adds of the message passing on the host between them — computes
  what the plain reference computes, over the extended reals, for every edge list whose source ids index inside the
  node axis.

  Layer by layer both programs form  relu((agg + (h · w) * d) + b)  (no clamp and one channel in the last layer),
  where  agg  adds, into each destination node's row, the source node's transformed features scaled by the edge's
  normalisation, and  d  is the squared inverse square root of the degree. The two differ in three places only:
  the kernel program rounds the product's operands to bf16 first (no change over the reals); it multiplies the
  gathered row by the normalisation in the other order (the product commutes); and it gathers with a range test
  that answers a filler word for an id outside the node axis, where the reference's indexing clamps — under the
  precondition no id is outside, so the test always passes. The reference's own stages name every intermediate value;
  each segment boundary of the kernel program's run is shown to hold those stages (Proof/Bound.lean), each region's
  output array being one whole-array function of its inputs (Proof/Lin*.lean, Proof/Comb*.lean).
-/
import proofs.«427416_j27908697489547_1_alg».proof.Defs
import proofs.«427416_j27908697489547_1_alg».proof.Proof.Gen.Kernel
import proofs.«427416_j27908697489547_1_alg».proof.Proof.Gen.Kernel.Skeleton
import proofs.«427416_j27908697489547_1_alg».proof.Proof.Gen.Kernel.Launch
import proofs.«427416_j27908697489547_1_alg».proof.Proof.Gen.Kernel.Points
import proofs.«427416_j27908697489547_1_alg».proof.Proof.Gen.Kernel.Frame
import proofs.«427416_j27908697489547_1_alg».proof.Proof.Gen.KernelIdeal
import proofs.«427416_j27908697489547_1_alg».proof.Proof.Gen.KernelIdeal.Skeleton
import proofs.«427416_j27908697489547_1_alg».proof.Proof.Gen.KernelIdeal.Launch
import proofs.«427416_j27908697489547_1_alg».proof.Proof.Gen.KernelIdeal.Points
import proofs.«427416_j27908697489547_1_alg».proof.Proof.Gen.KernelIdeal.Frame
import proofs.«427416_j27908697489547_1_alg».proof.Proof.Gen.ReferenceIdeal
import proofs.«427416_j27908697489547_1_alg».proof.Proof.Gen.Pre_finite_inputs
import proofs.«427416_j27908697489547_1_alg».proof.Proof.Gen.ReferenceIdeal.Run
import proofs.«427416_j27908697489547_1_alg».proof.Proof.Gen.ReferenceIdeal.Read
import proofs.«427416_j27908697489547_1_alg».proof.Proof.KRun
import proofs.«427416_j27908697489547_1_alg».proof.Proof.Bound
import Idealize.ShloMosaic.Adequacy
import Idealize.ShloMosaic.Init

noncomputable section

namespace Cert.Proof

open Idealize.ShloMosaic Idealize.SL.Sem

/-- The word-level program runs and leaves its arguments as launched: the generated frame. -/
theorem frame_k : Cert.frame_Kernel := fun m ρ _ => Cert.Kernel.Gen.frame m ρ

/-- So does the program read over the extended reals. -/
theorem frame_ki : Cert.frame_KernelIdeal := fun m ρ _ => Cert.KernelIdeal.Gen.frame m ρ

/-- The reference runs and leaves its arguments as launched: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The statement's precondition gives, on every core, the range condition on the source ids: its last conjunct decoded. -/
theorem srcOk_of_pre (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Bound.SrcOk m c := fun e =>
  Cert.KernelIdeal.Take.src_in_range (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (hpre c) e

/-- From memories that agree on the arguments, under the precondition, both programs end with the reference's result
    stage of the kernel program's launch arguments in their result arrays. -/
theorem algebraic : Cert.algebraic_KernelIdeal_ReferenceIdeal := by
  intro m ρ m' ρ' hpre hagree
  refine ⟨fun c => Cert.ReferenceIdeal.Read.val_main_v122 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Bound.result_eq m ρ c (srcOk_of_pre m hpre c)), (h c).2⟩)
      (Cert.KernelIdeal.KRun.run_main m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v122_eq, (hagree c).1, (hagree c).2.1, (hagree c).2.2.1,
      (hagree c).2.2.2.1, (hagree c).2.2.2.2.1, (hagree c).2.2.2.2.2.1, (hagree c).2.2.2.2.2.2.1,
      (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
